-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.truncf_extf.Statement Cert.KernelIdeal.S1024x512 .f32 .bf16
  ∧ IdealRules.truncf_extf.Statement Cert.KernelIdeal.S1024x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S32768x512 : Shape := ⟨2, ![32768, 512]⟩
abbrev S1024 : Shape := ⟨1, ![1024]⟩
abbrev S32768 : Shape := ⟨1, ![32768]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S32768x512 : S_.BroadcastsInDim S32768x512 (![] : Fin 0 → Fin S32768x512.rank)
  reducesTo_S32768x512_S_d0_1 : S32768x512.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S1024x512 .f32) (main_arg1 : FVec F S32768x512 .f32) (main_arg2 : IVec S1024 32) (main_arg3 : IVec S1024 32) (main_arg4 : IVec S32768 32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S32768x512 .f32 := Host.absf main_arg1
  let main_cst_0 : FVec F S_ .f32 := constant S_ .f32 0x7F800000#32
  let main_v5 : FVec F S32768x512 .f32 := broadcastInDim S32768x512 ![] bcast_S_S32768x512 main_cst_0
  let main_v6 : IVec S32768x512 1 := cmpf .olt main_v4 main_v5
  let main_c_1 : IVec S_ 1 := constantI S_ 1 1#1
  let main_v7 : IVec S_ 1 := (fun x v => Host.reduce IntOp.andi x v reducesTo_S32768x512_S_d0_1 h_S_) main_v6 main_c_1
  let main_v8 : IVec S_ 1 := andi main_v3 main_v7
  let main_c_2 : IVec S_ 32 := constantI S_ 32 0#32
  let main_v9 : IVec S1024 32 := broadcastInDim S1024 ![] bcast_S_S1024 main_c_2
  let main_v10 : IVec S1024 1 := cmpi .sge main_arg3 main_v9
  let main_c_3 : IVec S_ 1 := constantI S_ 1 1#1
  let main_v11 : IVec S_ 1 := (fun x v => Host.reduce IntOp.andi x v reducesTo_S1024_S_d0 h_S_) main_v10 main_c_3
  let main_v12 : IVec S_ 1 := andi main_v8 main_v11
  main_v12
-- ==== Kernel.lean ====
abbrev S1024x512 : Shape := ⟨2, ![1024, 512]⟩
abbrev S32768x512 : Shape := ⟨2, ![32768, 512]⟩
abbrev S1024 : Shape := ⟨1, ![1024]⟩
abbrev S32768 : Shape := ⟨1, ![32768]⟩
abbrev S1024x1 : Shape := ⟨2, ![1024, 1]⟩
abbrev S1x32768 : Shape := ⟨2, ![1, 32768]⟩
abbrev S2048x1 : Shape := ⟨2, ![2048, 1]⟩
abbrev S1x1024 : Shape := ⟨2, ![1, 1024]⟩
abbrev S1024x1024 : Shape := ⟨2, ![1024, 1024]⟩
abbrev S2x1024 : Shape := ⟨2, ![2, 1024]⟩
abbrev S_ : Shape := ⟨0, ![]⟩

abbrev nBuf : Space → Nat
  | .hbm => 27
  | .vmem => 16
  | .smem => 0
  | _ => 0

abbrev bufTy : (tb : Table) → Fin (tcTables nBuf tb) → BufTy
  | .hbm, ⟨0, _⟩ => ⟨S1024x512, .f32⟩
  | .hbm, ⟨1, _⟩ => ⟨S32768x512, .f32⟩
  | .hbm, ⟨2, _⟩ => ⟨S1024, .i32⟩
  | .hbm, ⟨3, _⟩ => ⟨S1024, .i32⟩
  | .hbm, ⟨4, _⟩ => ⟨S32768, .i32⟩
  | .hbm, ⟨5, _⟩ => ⟨S1024x1, .i32⟩
  | .hbm, ⟨6, _⟩ => ⟨S1024x1, .i32⟩
  | .hbm, ⟨7, _⟩ => ⟨S1x32768, .i32⟩
  | .hbm, ⟨8, _⟩ => ⟨S2048x1, .f32⟩
  | .hbm, ⟨9, _⟩ => ⟨S2048x1, .f32⟩
  | .hbm, ⟨10, _⟩ => ⟨S2x1024, .f32⟩
  | .hbm, ⟨11, _⟩ => ⟨S_, .f32⟩
  | .hbm, ⟨12, _⟩ => ⟨S1024, .f32⟩
  | .hbm, ⟨13, _⟩ => ⟨S2x1024, .f32⟩
  | .hbm, ⟨14, _⟩ => ⟨S_, .f32⟩
  | .hbm, ⟨15, _⟩ => ⟨S1024, .f32⟩
  | .hbm, ⟨16, _⟩ => ⟨S1024, .f32⟩
  | .hbm, ⟨17, _⟩ => ⟨S_, .f32⟩
  | .hbm, ⟨18, _⟩ => ⟨S1024, .f32⟩
  | .hbm, ⟨19, _⟩ => ⟨S1024, .f32⟩
  | .hbm, ⟨20, _⟩ => ⟨S_, .f32⟩
  | .hbm, ⟨21, _⟩ => ⟨S1024, .f32⟩
  | .hbm, ⟨22, _⟩ => ⟨S1024, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x1, .i32⟩
  | .local _ .vmem, ⟨4, _⟩ => ⟨S1024x1, .i32⟩
  | .local _ .vmem, ⟨5, _⟩ => ⟨S1x1024, .i32⟩
  | .local _ .vmem, ⟨6, _⟩ => ⟨S1x1024, .i32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x512, .bf16⟩
  | .local _ .vmem, ⟨14, _⟩ => ⟨S1024x512, .bf16⟩
  | .local _ .vmem, ⟨15, _⟩ => ⟨S1x1024, .i32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v53 : BitVec 1 := Scalar.cmpi .eq arg1 c15_i32
  let v54 : BitVec 32 := Scalar.extui v53
  let c0_i32_29 : BitVec 32 := 0#32
  let v55 : BitVec 1 := Scalar.cmpi .ne v54 c0_i32_29
  v55

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  shapeCasts_S1024_S1024x1 : S1024.ShapeCasts S1024x1
  shapeCasts_S32768_S1x32768 : S32768.ShapeCasts S1x32768
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  shapeCasts_S1024x512_S1024x512 : S1024x512.ShapeCasts S1024x512
  packedbf16_S1024x512_S1024x512_0_0 : (Rect.unit (s := S1024x512) ![0, 0] S1024x512.size inb_S1024x512_S1024x512_0_0).PackedRows (EltTy.packing .bf16)
  iota_S1x1024_d1_w32 : S1x1024.Iotas .tc 32 [1]
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S2048x1_S2x1024 : S2048x1.ShapeCasts S2x1024
  reducesTo_S2x1024_S1024_d0 : S2x1024.ReducesTo [0] S1024
  h_S_ : 0 < S_.numel
  bcast_S_S1024 : S_.BroadcastsInDim S1024 (![] : Fin 0 → Fin S1024.rank)
  reducesTo_S1024_S_d0 : S1024.ReducesTo [0] S_
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S1024x512.size a
  hwx0_0 : ∀ i : grid0.Coords, EltTy.bits .f32 = 32 ∨ (Rect.block (s := S1024x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S32768x512.size a
  hwx0_1 : ∀ i : grid0.Coords, EltTy.bits .f32 = 32 ∨ (Rect.block (s := S32768x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S1024x1.size a
  hwx0_2 : ∀ i : grid0.Coords, EltTy.bits .i32 = 32 ∨ (Rect.block (s := S1024x1) S1024x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S1024x1.size a
  hwx0_3 : ∀ i : grid0.Coords, EltTy.bits .i32 = 32 ∨ (Rect.block (s := S1024x1) S1024x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x32768.size a
  hwx0_4 : ∀ i : grid0.Coords, EltTy.bits .i32 = 32 ∨ (Rect.block (s := S1x32768) S1x1024.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S2048x1.size a
  hwx0_5 : ∀ i : grid0.Coords, EltTy.bits .f32 = 32 ∨ (Rect.block (s := S2048x1) S1024x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S2048x1.size a
  hwx0_6 : ∀ i : grid0.Coords, EltTy.bits .f32 = 32 ∨ (Rect.block (s := S2048x1) S1024x1.size (cc0_transform_6 i) (hinb0_6 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S1024x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_0) S1024x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_1) S1024x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun i => !(k0_cond2 i == 1#1) | ⟨_ + 7, h⟩ => absurd h (Nat.not_lt.2 (Nat.le_add_left _ _))

class Facts : Prop extends Facts₀ where

variable [Facts]
-- ==== ReferenceIdeal.lean ====
abbrev S1024x512 : Shape := ⟨2, ![1024, 512]⟩
abbrev S32768x512 : Shape := ⟨2, ![32768, 512]⟩
abbrev S1024 : Shape := ⟨1, ![1024]⟩
abbrev S32768 : Shape := ⟨1, ![32768]⟩
abbrev S1024x32768 : Shape := ⟨2, ![1024, 32768]⟩
abbrev S1024x1 : Shape := ⟨2, ![1024, 1]⟩
abbrev S1x32768 : Shape := ⟨2, ![1, 32768]⟩
abbrev S_ : Shape := ⟨0, ![]⟩
abbrev S1024x2 : Shape := ⟨2, ![1024, 2]⟩

abbrev nBuf : Space → Nat
  | .hbm => 60
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S32768x512, .f32⟩
  | .hbm, ⟨2, _⟩ => ⟨S1024, .i32⟩
  | .hbm, ⟨3, _⟩ => ⟨S1024, .i32⟩
  | .hbm, ⟨4, _⟩ => ⟨S32768, .i32⟩
  | .hbm, ⟨5, _⟩ => ⟨S1024x32768, .f32⟩
  | .hbm, ⟨6, _⟩ => ⟨S1024x1, .i32⟩
  | .hbm, ⟨7, _⟩ => ⟨S1x32768, .i32⟩
  | .hbm, ⟨8, _⟩ => ⟨S1024x32768, .i32⟩
  | .hbm, ⟨9, _⟩ => ⟨S1024x32768, .i32⟩
  | .hbm, ⟨10, _⟩ => ⟨S1024x32768, .i1⟩
  | .hbm, ⟨11, _⟩ => ⟨S1024, .i32⟩
  | .hbm, ⟨12, _⟩ => ⟨S_, .i32⟩
  | .hbm, ⟨13, _⟩ => ⟨S1024, .i32⟩
  | .hbm, ⟨14, _⟩ => ⟨S1024, .i1⟩
  | .hbm, ⟨15, _⟩ => ⟨S_, .i32⟩
  | .hbm, ⟨16, _⟩ => ⟨S1024, .i32⟩
  | .hbm, ⟨17, _⟩ => ⟨S1024, .i32⟩
  | .hbm, ⟨18, _⟩ => ⟨S1024, .i32⟩
  | .hbm, ⟨19, _⟩ => ⟨S_, .i32⟩
  | .hbm, ⟨20, _⟩ => ⟨S1024, .i32⟩
  | .hbm, ⟨21, _⟩ => ⟨S1024, .i1⟩
  | .hbm, ⟨22, _⟩ => ⟨S_, .i32⟩
  | .hbm, ⟨23, _⟩ => ⟨S1024, .i32⟩
  | .hbm, ⟨24, _⟩ => ⟨S1024, .i32⟩
  | .hbm, ⟨25, _⟩ => ⟨S1024, .i32⟩
  | .hbm, ⟨26, _⟩ => ⟨S1024x1, .i32⟩
  | .hbm, ⟨27, _⟩ => ⟨S1024x1, .i32⟩
  | .hbm, ⟨28, _⟩ => ⟨S1024x2, .i32⟩
  | .hbm, ⟨29, _⟩ => ⟨S_, .i1⟩
  | .hbm, ⟨30, _⟩ => ⟨S1024, .i1⟩
  | .hbm, ⟨31, _⟩ => ⟨S1024x32768, .i1⟩
  | .hbm, ⟨32, _⟩ => ⟨S1024x1, .i32⟩
  | .hbm, ⟨33, _⟩ => ⟨S1x32768, .i32⟩
  | .hbm, ⟨34, _⟩ => ⟨S1024x32768, .i32⟩
  | .hbm, ⟨35, _⟩ => ⟨S1024x32768, .i32⟩
  | .hbm, ⟨36, _⟩ => ⟨S1024x32768, .i1⟩
  | .hbm, ⟨37, _⟩ => ⟨S_, .f32⟩
  | .hbm, ⟨38, _⟩ => ⟨S_, .f32⟩
  | .hbm, ⟨39, _⟩ => ⟨S1024x32768, .f32⟩
  | .hbm, ⟨40, _⟩ => ⟨S1024x32768, .f32⟩
  | .hbm, ⟨41, _⟩ => ⟨S_, .f32⟩
  | .hbm, ⟨42, _⟩ => ⟨S1024, .f32⟩
  | .hbm, ⟨43, _⟩ => ⟨S_, .f32⟩
  | .hbm, ⟨44, _⟩ => ⟨S_, .f32⟩
  | .hbm, ⟨45, _⟩ => ⟨S1024x32768, .f32⟩
  | .hbm, ⟨46, _⟩ => ⟨S1024x32768, .f32⟩
  | .hbm, ⟨47, _⟩ => ⟨S_, .f32⟩
  | .hbm, ⟨48, _⟩ => ⟨S1024, .f32⟩
  | .hbm, ⟨49, _⟩ => ⟨S1024, .f32⟩
  | .hbm, ⟨50, _⟩ => ⟨S_, .f32⟩
  | .hbm, ⟨51, _⟩ => ⟨S1024, .f32⟩
  | .hbm, ⟨52, _⟩ => ⟨S1024, .f32⟩
  | .hbm, ⟨53, _⟩ => ⟨S_, .f32⟩
  | .hbm, ⟨54, _⟩ => ⟨S1024, .f32⟩
  | .hbm, ⟨55, _⟩ => ⟨S1024, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst : Ref sig .tc := ⟨.hbm, 37, rfl⟩
abbrev main_call0_v0 : Ref sig .tc := ⟨.hbm, 38, rfl⟩
abbrev main_call0_v1 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_cst_5 : Ref sig .tc := ⟨.hbm, 43, rfl⟩
abbrev main_call1_v0 : Ref sig .tc := ⟨.hbm, 44, rfl⟩
abbrev main_call1_v1 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_v33 : Ref sig .tc := ⟨.hbm, 52, rfl⟩
abbrev main_cst_8 : Ref sig .tc := ⟨.hbm, 53, rfl⟩
abbrev main_v34 : Ref sig .tc := ⟨.hbm, 54, rfl⟩
abbrev main_v35 : Ref sig .tc := ⟨.hbm, 55, rfl⟩
abbrev main_cst_9 : Ref sig .tc := ⟨.hbm, 56, rfl⟩
abbrev main_v36 : Ref sig .tc := ⟨.hbm, 57, rfl⟩
abbrev main_cst_10 : Ref sig .tc := ⟨.hbm, 58, rfl⟩
abbrev main_v37 : Ref sig .tc := ⟨.hbm, 59, rfl⟩

abbrev nD : Nat := 1
abbrev τ : Topo := Topo.v7x

variable {F : FTy → Type} [FloatOps F]

class Facts₀ : Prop where
  bcast_S1024_S1024x1_0 : S1024.BroadcastsInDim S1024x1 (![0] : Fin 1 → Fin S1024x1.rank)
  bcast_S32768_S1x32768_1 : S32768.BroadcastsInDim S1x32768 (![1] : Fin 1 → Fin S1x32768.rank)
  bcast_S1024x1_S1024x32768_0_1 : S1024x1.BroadcastsInDim S1024x32768 (![0, 1] : Fin 2 → Fin S1024x32768.rank)
  bcast_S1x32768_S1024x32768_0_1 : S1x32768.BroadcastsInDim S1024x32768 (![0, 1] : Fin 2 → Fin S1024x32768.rank)
  bcast_S_S1024 : S_.BroadcastsInDim S1024 (![] : Fin 0 → Fin S1024.rank)
  concatenates_S1024x1_S1024x1_S1024x2_d1 : Shape.Concatenates [S1024x1, S1024x1] S1024x2 1
  bcast_S_S1024x32768 : S_.BroadcastsInDim S1024x32768 (![] : Fin 0 → Fin S1024x32768.rank)
  reducesTo_S1024x32768_S1024_d1 : S1024x32768.ReducesTo [1] S1024
  h_S_ : 0 < S_.numel
  reducesTo_S1024_S_d0 : S1024.ReducesTo [0] S_
  dot_S1024x512_S32768x512_S1024x32768_1_1_0_0_n_n_wf : DotDims.WF S1024x512 S32768x512 S1024x32768 [1] [1] [0] [0] [] []
  scatter_S1024x32768_S1024x2_S1024_n_01_01_1_wf : ScatterDims.WF S1024x32768 S1024x2 S1024 [] [0, 1] [0, 1] 1

variable [Facts₀]

def dot_S1024x512_S32768x512_S1024x32768_1_1_0_0_n_n : DotDims S1024x512 S32768x512 S1024x32768 where
  lhsContracting := [1]
  rhsContracting := [1]
  lhsNonContracting := [0]
  rhsNonContracting := [0]
  lhsBatch := []
  rhsBatch := []
  wf := dot_S1024x512_S32768x512_S1024x32768_1_1_0_0_n_n_wf
def scatter_S1024x32768_S1024x2_S1024_n_01_01_1 : ScatterDims S1024x32768 S1024x2 S1024 where
  updateWindowDims := []
  insertedWindowDims := [0, 1]
  scatterDimsToOperandDims := [0, 1]
  indexVectorDim := 1
  wf := scatter_S1024x32768_S1024x2_S1024_n_01_01_1_wf

class Facts : Prop extends Facts₀ where

variable [Facts]
-- ==== Proof.Scatter.lean ====
/-
  A scatter that clears one entry per row, read at an index.

  The operand is a 1024 × 32768 array of bits; update `n` carries the pair of words `(I (n, 0), I (n, 1))` read as
  signed numbers, and writes the value `v` at that (row, column) when it lies inside the array and is dropped when it
  does not.  When the row word of update `n` is `n` itself, row `i` is touched by update `i` alone, so entry
  `(i, j)` ends at `v` exactly when the column word of update `i` is the number `j`, and keeps the operand's bit
  otherwise — whatever order the updates are taken in.
-/
import Idealize.ShloMosaic.PureOps.Ideal
import Idealize.ShloMosaic.Lib.ValueIdx

noncomputable section

namespace Cert.Mining

open Idealize.ShloMosaic Idealize.ShloMosaic.ValueIdx

/-- One start index per update, its two words the row and the column; the update is a single element. -/
abbrev rowColScatter : ScatterDims ⟨2, ![1024, 32768]⟩ ⟨2, ![1024, 2]⟩ ⟨1, ![1024]⟩ where
  updateWindowDims := []
  insertedWindowDims := [0, 1]
  scatterDimsToOperandDims := [0, 1]
  indexVectorDim := 1

theorem rowColScatter_start_row (n : (⟨1, ![1024]⟩ : Shape).Idx) (I : IVec ⟨2, ![1024, 2]⟩ 32) :
    rowColScatter.start n I 0 = (I (ix2 (n 0) 0)).toInt := by
  unfold ScatterDims.start
  rw [dif_pos (by decide)]
  congr 2
  funext b
  match b with
  | ⟨0, _⟩ => rfl
  | ⟨1, _⟩ => rfl

theorem rowColScatter_start_col (n : (⟨1, ![1024]⟩ : Shape).Idx) (I : IVec ⟨2, ![1024, 2]⟩ 32) :
    rowColScatter.start n I 1 = (I (ix2 (n 0) 1)).toInt := by
  unfold ScatterDims.start
  rw [dif_pos (by decide)]
  congr 2
  funext b
  match b with
  | ⟨0, _⟩ => rfl
  | ⟨1, _⟩ => rfl

theorem rowColScatter_window (n : (⟨1, ![1024]⟩ : Shape).Idx) (a : Fin 2) : rowColScatter.window n a = 0 := by
  unfold ScatterDims.window
  rw [dif_neg (by revert a; decide)]

/-- Where update `n` lands: at (row word, column word) when both are inside the array. -/
theorem rowColScatter_resultIdx_eq_some_iff (n : (⟨1, ![1024]⟩ : Shape).Idx) (I : IVec ⟨2, ![1024, 2]⟩ 32)
    (i : Fin 1024) (j : Fin 32768) :
    rowColScatter.resultIdx? n I = some (ix2 i j)
      ↔ (I (ix2 (n 0) 0)).toInt = (i.val : Int) ∧ (I (ix2 (n 0) 1)).toInt = (j.val : Int) := by
  unfold ScatterDims.resultIdx?
  have hi := i.isLt
  have hj := j.isLt
  constructor
  · intro h
    split at h
    · rename_i hall
      have e := Option.some.inj h
      have e0 := congrArg (fun p : (⟨2, ![1024, 32768]⟩ : Shape).Idx => (p 0).val) e
      have e1 := congrArg (fun p : (⟨2, ![1024, 32768]⟩ : Shape).Idx => (p 1).val) e
      have h0 := hall 0
      have h1 := hall 1
      simp only [rowColScatter_start_row, rowColScatter_start_col, rowColScatter_window] at e0 e1 h0 h1
      have e0' : ((I (ix2 (n 0) 0)).toInt + ((0 : Nat) : Int)).toNat = i.val := e0
      have e1' : ((I (ix2 (n 0) 1)).toInt + ((0 : Nat) : Int)).toNat = j.val := e1
      constructor <;> omega
    · exact absurd h (by simp)
  · rintro ⟨h0, h1⟩
    have hall : ∀ a : Fin 2, 0 ≤ rowColScatter.start n I a + (rowColScatter.window n a : Int)
        ∧ rowColScatter.start n I a + (rowColScatter.window n a : Int) < ((⟨2, ![1024, 32768]⟩ : Shape).size a : Int) := by
      intro a
      match a with
      | ⟨0, _⟩ =>
        show 0 ≤ rowColScatter.start n I 0 + (rowColScatter.window n 0 : Int) ∧ rowColScatter.start n I 0 + (rowColScatter.window n 0 : Int) < (1024 : Int)
        rw [rowColScatter_start_row, rowColScatter_window, h0]; omega
      | ⟨1, _⟩ =>
        show 0 ≤ rowColScatter.start n I 1 + (rowColScatter.window n 1 : Int) ∧ rowColScatter.start n I 1 + (rowColScatter.window n 1 : Int) < (32768 : Int)
        rw [rowColScatter_start_col, rowColScatter_window, h1]; omega
    rw [dif_pos hall]
    congr 1
    funext a
    apply Fin.ext
    match a with
    | ⟨0, _⟩ =>
      show (rowColScatter.start n I 0 + (rowColScatter.window n 0 : Int)).toNat = i.val
      rw [rowColScatter_start_row, rowColScatter_window, h0]; omega
    | ⟨1, _⟩ =>
      show (rowColScatter.start n I 1 + (rowColScatter.window n 1 : Int)).toNat = j.val
      rw [rowColScatter_start_col, rowColScatter_window, h1]; omega

/-- The fold of the updates over any list of them: an entry some listed update lands on holds `v`, any other keeps. -/
theorem foldl_set_apply {S : Shape} {N : Nat} (R : Fin N → Option S.Idx) (v : BitVec 1) (p : S.Idx) :
    ∀ (l : List (Fin N)) (x : S.Idx → BitVec 1),
      (l.foldl (fun r n => match R n with
          | some i => fun i' => if i' = i then (fun (_ : BitVec 1) (b : BitVec 1) => b) (r i) v else r i'
          | none => r) x) p
        = if ∃ n ∈ l, R n = some p then v else x p
  | [], x => by simp
  | n :: l, x => by
    rw [List.foldl_cons, foldl_set_apply R v p l]
    by_cases hl : ∃ n' ∈ l, R n' = some p
    · rw [if_pos hl, if_pos (by obtain ⟨n', hn', e⟩ := hl; exact ⟨n', List.mem_cons_of_mem _ hn', e⟩)]
    · rw [if_neg hl]
      cases hR : R n with
      | none =>
        have : ¬∃ n' ∈ n :: l, R n' = some p := by
          rintro ⟨n', hn', e⟩
          rcases List.mem_cons.1 hn' with rfl | hn'
          · rw [hR] at e; exact absurd e (by simp)
          · exact hl ⟨n', hn', e⟩
        rw [if_neg this]
      | some q =>
        by_cases hpq : p = q
        · subst hpq
          rw [if_pos ⟨n, List.mem_cons_self, hR⟩]
          simp
        · have : ¬∃ n' ∈ n :: l, R n' = some p := by
            rintro ⟨n', hn', e⟩
            rcases List.mem_cons.1 hn' with rfl | hn'
            · rw [hR] at e; exact hpq (Option.some.inj e).symm
            · exact hl ⟨n', hn', e⟩
          rw [if_neg this]
          simp [hpq]

/-- THE READING: with the row word of update `n` equal to `n`, entry `(i, j)` is `v` when update `i`'s column word is
    `j`, and the operand's entry otherwise. -/
theorem scatter_set_apply (x : (⟨2, ![1024, 32768]⟩ : Shape).Idx → BitVec 1) (I : IVec ⟨2, ![1024, 2]⟩ 32) (v : BitVec 1)
    (hrow : ∀ n : Fin 1024, (I (ix2 n 0)).toInt = (n.val : Int)) (i : Fin 1024) (j : Fin 32768) :
    Host.scatter rowColScatter (fun _ b => b) x I (fun _ => v) (ix2 i j)
      = if (I (ix2 i 1)).toInt = (j.val : Int) then v else x (ix2 i j) := by
  unfold Host.scatter
  refine (foldl_set_apply (S := ⟨2, ![1024, 32768]⟩)
    (fun n => rowColScatter.resultIdx? ((⟨1, ![1024]⟩ : Shape).rowMajor.symm n) I) v (ix2 i j) _ x).trans ?_
  refine if_congr ?_ rfl rfl
  constructor
  · rintro ⟨n, _, e⟩
    obtain ⟨h0, h1⟩ := (rowColScatter_resultIdx_eq_some_iff _ I i j).1 e
    have hn : ((⟨1, ![1024]⟩ : Shape).rowMajor.symm n) 0 = i := by
      apply Fin.ext
      have := hrow (((⟨1, ![1024]⟩ : Shape).rowMajor.symm n) 0)
      rw [this] at h0
      exact_mod_cast h0
    rw [hn] at h1
    exact h1
  · intro h
    refine ⟨(⟨1, ![1024]⟩ : Shape).rowMajor (ix1 i), List.mem_finRange _, ?_⟩
    rw [Equiv.symm_apply_apply]
    exact (rowColScatter_resultIdx_eq_some_iff _ I i j).2 ⟨hrow i, h⟩

end Cert.Mining

end
-- ==== Proof.Spec.lean ====
/-
  Hardest-positive / hardest-negative mining over a gallery of 32768 rows, as plain functions of the
  argument arrays.

  For batch row `i` and gallery row `j` the similarity is the inner product over the 512 features.  A
  gallery row is a POSITIVE of `i` when its label is `i`'s target and it is not `i`'s own slot, and a
  NEGATIVE when its label differs.  The loss wants the smallest similarity over the positives
  (`⊤` when there are none) and the largest over the negatives (`⊥` when there are none).

  The gallery is streamed in 32 tiles of 1024 rows; grid point `t` sees rows `t * 1024 + l`.  The first
  16 points belong to one half of the gallery and the last 16 to the other, and within a half the
  running minimum (maximum) is reset at the half's first point.  `accMin` / `accMax` are those running
  values; folded over the two halves they are the minimum (maximum) over the whole gallery, because a
  minimum does not care how its index set is cut up.
-/
import Idealize.ShloMosaic.PureOps.Ideal
import Idealize.ShloMosaic.Lib.ValueIdx

noncomputable section

namespace Cert.Mining

open Idealize.ShloMosaic Idealize.ShloMosaic.ValueIdx

/-! ## The terms of the two reductions -/

/-- The inner product of batch row `i` and gallery row `j`. -/
def sim (x : (⟨2, ![1024, 512]⟩ : Shape).Idx → EReal) (f : (⟨2, ![32768, 512]⟩ : Shape).Idx → EReal)
    (i : Fin 1024) (j : Fin 32768) : EReal :=
  ∑ k : Fin 512, x (ix2 i k) * f (ix2 j k)

/-- Gallery row `j` carries batch row `i`'s target label. -/
def sameLabel (tg : (⟨1, ![1024]⟩ : Shape).Idx → BitVec 32) (fl : (⟨1, ![32768]⟩ : Shape).Idx → BitVec 32)
    (i : Fin 1024) (j : Fin 32768) : Prop :=
  tg (ix1 i) = fl (ix1 j)

instance (tg fl i j) : Decidable (sameLabel tg fl i j) := by unfold sameLabel; infer_instance

/-- Gallery row `j` is batch row `i`'s own slot: the word `idx i` is the number `j`. -/
def ownSlot (idx : (⟨1, ![1024]⟩ : Shape).Idx → BitVec 32) (i : Fin 1024) (j : Fin 32768) : Prop :=
  BitVec.ofNat 32 j.val = idx (ix1 i)

instance (idx i j) : Decidable (ownSlot idx i j) := by unfold ownSlot; infer_instance

/-- What gallery row `j` contributes to row `i`'s minimum over the positives. -/
def posTerm (x : (⟨2, ![1024, 512]⟩ : Shape).Idx → EReal) (f : (⟨2, ![32768, 512]⟩ : Shape).Idx → EReal)
    (tg idx : (⟨1, ![1024]⟩ : Shape).Idx → BitVec 32) (fl : (⟨1, ![32768]⟩ : Shape).Idx → BitVec 32)
    (i : Fin 1024) (j : Fin 32768) : EReal :=
  if sameLabel tg fl i j ∧ ¬ownSlot idx i j then sim x f i j else ⊤

/-- What gallery row `j` contributes to row `i`'s maximum over the negatives. -/
def negTerm (x : (⟨2, ![1024, 512]⟩ : Shape).Idx → EReal) (f : (⟨2, ![32768, 512]⟩ : Shape).Idx → EReal)
    (tg : (⟨1, ![1024]⟩ : Shape).Idx → BitVec 32) (fl : (⟨1, ![32768]⟩ : Shape).Idx → BitVec 32)
    (i : Fin 1024) (j : Fin 32768) : EReal :=
  if sameLabel tg fl i j then ⊥ else sim x f i j

/-! ## Tiles and running values -/

/-- Gallery row `t * 1024 + l`: lane `l` of the tile grid point `t` streams. -/
def col (t : Nat) (ht : t < 32) (l : Fin 1024) : Fin 32768 := ⟨t * 1024 + l.val, by have := l.isLt; omega⟩

/-- The minimum of `φ` over the tile of point `t`. -/
def tileMin (φ : Fin 32768 → EReal) (t : Nat) (ht : t < 32) : EReal :=
  (Finset.univ : Finset (Fin 1024)).fold min ⊤ (fun l => φ (col t ht l))

/-- The maximum of `φ` over the tile of point `t`. -/
def tileMax (φ : Fin 32768 → EReal) (t : Nat) (ht : t < 32) : EReal :=
  (Finset.univ : Finset (Fin 1024)).fold max ⊥ (fun l => φ (col t ht l))

/-- The running minimum after point `t`: reset to `⊤` at the first point of a half (`t % 16 = 0`). -/
def accMin (φ : Fin 32768 → EReal) : (t : Nat) → t < 32 → EReal
  | 0, h => min ⊤ (tileMin φ 0 h)
  | t + 1, h =>
    if (t + 1) % 16 = 0 then min ⊤ (tileMin φ (t + 1) h)
    else min (accMin φ t (Nat.lt_of_succ_lt h)) (tileMin φ (t + 1) h)

/-- The running maximum after point `t`: reset to `⊥` at the first point of a half. -/
def accMax (φ : Fin 32768 → EReal) : (t : Nat) → t < 32 → EReal
  | 0, h => max ⊥ (tileMax φ 0 h)
  | t + 1, h =>
    if (t + 1) % 16 = 0 then max ⊥ (tileMax φ (t + 1) h)
    else max (accMax φ t (Nat.lt_of_succ_lt h)) (tileMax φ (t + 1) h)

theorem accMin_first (φ : Fin 32768 → EReal) (t : Nat) (ht : t < 32) (h0 : t % 16 = 0) :
    accMin φ t ht = min ⊤ (tileMin φ t ht) := by
  cases t with
  | zero => rfl
  | succ n => exact if_pos h0

theorem accMin_next (φ : Fin 32768 → EReal) (t : Nat) (ht : t < 32) (h0 : ¬t % 16 = 0) :
    accMin φ t ht = min (accMin φ (t - 1) (by omega)) (tileMin φ t ht) := by
  cases t with
  | zero => exact absurd (Nat.zero_mod _) h0
  | succ n => exact if_neg h0

theorem accMax_first (φ : Fin 32768 → EReal) (t : Nat) (ht : t < 32) (h0 : t % 16 = 0) :
    accMax φ t ht = max ⊥ (tileMax φ t ht) := by
  cases t with
  | zero => rfl
  | succ n => exact if_pos h0

theorem accMax_next (φ : Fin 32768 → EReal) (t : Nat) (ht : t < 32) (h0 : ¬t % 16 = 0) :
    accMax φ t ht = max (accMax φ (t - 1) (by omega)) (tileMax φ t ht) := by
  cases t with
  | zero => exact absurd (Nat.zero_mod _) h0
  | succ n => exact if_neg h0

/-! ## A bound below the running minimum is a bound below every term met so far -/

theorem le_tileMin_iff (φ : Fin 32768 → EReal) (t : Nat) (ht : t < 32) (c : EReal) :
    c ≤ tileMin φ t ht ↔ ∀ l : Fin 1024, c ≤ φ (col t ht l) := by
  unfold tileMin
  rw [Finset.le_fold_min]
  exact ⟨fun h l => h.2 l (Finset.mem_univ l), fun h => ⟨le_top, fun l _ => h l⟩⟩

theorem tileMax_le_iff (φ : Fin 32768 → EReal) (t : Nat) (ht : t < 32) (c : EReal) :
    tileMax φ t ht ≤ c ↔ ∀ l : Fin 1024, φ (col t ht l) ≤ c := by
  unfold tileMax
  rw [Finset.fold_max_le]
  exact ⟨fun h l => h.2 l (Finset.mem_univ l), fun h => ⟨bot_le, fun l _ => h l⟩⟩

/-- After point `t` the running minimum bounds exactly the tiles of `t`'s half met so far. -/
theorem le_accMin_iff (φ : Fin 32768 → EReal) (c : EReal) : ∀ (t : Nat) (ht : t < 32),
    c ≤ accMin φ t ht ↔ ∀ (t' : Nat) (ht' : t' < 32), t / 16 * 16 ≤ t' → t' ≤ t → ∀ l : Fin 1024, c ≤ φ (col t' ht' l)
  | 0, ht => by
    rw [accMin_first φ 0 ht rfl, le_min_iff, le_tileMin_iff]
    constructor
    · rintro ⟨_, h⟩ t' ht' _ hle l
      have e : t' = 0 := by omega
      subst e; exact h l
    · intro h; exact ⟨le_top, fun l => h 0 ht (by omega) (le_refl _) l⟩
  | t + 1, ht => by
    by_cases h0 : (t + 1) % 16 = 0
    · rw [accMin_first φ (t + 1) ht h0, le_min_iff, le_tileMin_iff]
      constructor
      · rintro ⟨_, h⟩ t' ht' hge hle l
        have e : t' = t + 1 := by omega
        subst e; exact h l
      · intro h; exact ⟨le_top, fun l => h (t + 1) ht (by omega) (le_refl _) l⟩
    · rw [accMin_next φ (t + 1) ht h0, le_min_iff, le_tileMin_iff]
      have ih := le_accMin_iff φ c (t + 1 - 1) (by omega)
      rw [ih]
      have hdiv : (t + 1 - 1) / 16 * 16 = (t + 1) / 16 * 16 := by omega
      constructor
      · rintro ⟨h1, h2⟩ t' ht' hge hle l
        by_cases e : t' = t + 1
        · subst e; exact h2 l
        · exact h1 t' ht' (by omega) (by omega) l
      · intro h
        exact ⟨fun t' ht' hge hle l => h t' ht' (by omega) (by omega) l, fun l => h (t + 1) ht (by omega) (le_refl _) l⟩

/-- After point `t` the running maximum is bounded exactly by the bounds of the tiles of `t`'s half met so far. -/
theorem accMax_le_iff (φ : Fin 32768 → EReal) (c : EReal) : ∀ (t : Nat) (ht : t < 32),
    accMax φ t ht ≤ c ↔ ∀ (t' : Nat) (ht' : t' < 32), t / 16 * 16 ≤ t' → t' ≤ t → ∀ l : Fin 1024, φ (col t' ht' l) ≤ c
  | 0, ht => by
    rw [accMax_first φ 0 ht rfl, max_le_iff, tileMax_le_iff]
    constructor
    · rintro ⟨_, h⟩ t' ht' _ hle l
      have e : t' = 0 := by omega
      subst e; exact h l
    · intro h; exact ⟨bot_le, fun l => h 0 ht (by omega) (le_refl _) l⟩
  | t + 1, ht => by
    by_cases h0 : (t + 1) % 16 = 0
    · rw [accMax_first φ (t + 1) ht h0, max_le_iff, tileMax_le_iff]
      constructor
      · rintro ⟨_, h⟩ t' ht' hge hle l
        have e : t' = t + 1 := by omega
        subst e; exact h l
      · intro h; exact ⟨bot_le, fun l => h (t + 1) ht (by omega) (le_refl _) l⟩
    · rw [accMax_next φ (t + 1) ht h0, max_le_iff, tileMax_le_iff]
      have ih := accMax_le_iff φ c (t + 1 - 1) (by omega)
      rw [ih]
      constructor
      · rintro ⟨h1, h2⟩ t' ht' hge hle l
        by_cases e : t' = t + 1
        · subst e; exact h2 l
        · exact h1 t' ht' (by omega) (by omega) l
      · intro h
        exact ⟨fun t' ht' hge hle l => h t' ht' (by omega) (by omega) l, fun l => h (t + 1) ht (by omega) (le_refl _) l⟩

/-! ## The two halves together are the whole gallery -/

/-- Every gallery row is a lane of some tile of some half. -/
theorem exists_col (j : Fin 32768) : ∃ (t : Nat) (ht : t < 32) (l : Fin 1024), col t ht l = j :=
  ⟨j.val / 1024, by have := j.isLt; omega, ⟨j.val % 1024, Nat.mod_lt _ (by decide)⟩, Fin.ext (by
    show j.val / 1024 * 1024 + j.val % 1024 = j.val
    omega)⟩

/-- The minimum of the two halves' final running minima (from `⊤`) is the minimum over the gallery. -/
theorem fold_halves_accMin (φ : Fin 32768 → EReal) :
    (Finset.univ : Finset (Fin 2)).fold min ⊤ (fun g => accMin φ (g.val * 16 + 15) (by have := g.isLt; omega))
      = (Finset.univ : Finset (Fin 32768)).fold min ⊤ φ := by
  refine eq_of_forall_le_iff fun c => ?_
  rw [Finset.le_fold_min, Finset.le_fold_min]
  constructor
  · rintro ⟨_, h⟩
    refine ⟨le_top, fun j _ => ?_⟩
    obtain ⟨t, ht, l, rfl⟩ := exists_col j
    have hg : t / 16 < 2 := by omega
    have := (le_accMin_iff φ c ((⟨t / 16, hg⟩ : Fin 2).val * 16 + 15) (by show t / 16 * 16 + 15 < 32; omega)).1
      (h ⟨t / 16, hg⟩ (Finset.mem_univ _)) t ht (by show (t / 16 * 16 + 15) / 16 * 16 ≤ t; omega) (by show t ≤ t / 16 * 16 + 15; omega) l
    exact this
  · rintro ⟨_, h⟩
    refine ⟨le_top, fun g _ => ?_⟩
    rw [le_accMin_iff]
    intro t' ht' _ _ l
    exact h _ (Finset.mem_univ _)

/-- The maximum of the two halves' final running maxima (from `⊥`) is the maximum over the gallery. -/
theorem fold_halves_accMax (φ : Fin 32768 → EReal) :
    (Finset.univ : Finset (Fin 2)).fold max ⊥ (fun g => accMax φ (g.val * 16 + 15) (by have := g.isLt; omega))
      = (Finset.univ : Finset (Fin 32768)).fold max ⊥ φ := by
  refine eq_of_forall_ge_iff fun c => ?_
  rw [Finset.fold_max_le, Finset.fold_max_le]
  constructor
  · rintro ⟨_, h⟩
    refine ⟨bot_le, fun j _ => ?_⟩
    obtain ⟨t, ht, l, rfl⟩ := exists_col j
    have hg : t / 16 < 2 := by omega
    have := (accMax_le_iff φ c ((⟨t / 16, hg⟩ : Fin 2).val * 16 + 15) (by show t / 16 * 16 + 15 < 32; omega)).1
      (h ⟨t / 16, hg⟩ (Finset.mem_univ _)) t ht (by show (t / 16 * 16 + 15) / 16 * 16 ≤ t; omega) (by show t ≤ t / 16 * 16 + 15; omega) l
    exact this
  · rintro ⟨_, h⟩
    refine ⟨bot_le, fun g _ => ?_⟩
    rw [accMax_le_iff]
    intro t' ht' _ _ l
    exact h _ (Finset.mem_univ _)

end Cert.Mining

end
-- ==== Proof.RefValue.lean ====
/-
  The reference's two reductions, read at a batch row.

  The reference builds the whole 1024 × 32768 similarity matrix by one contraction over the 512 features, the positive
  mask by comparing labels and then clearing each row's own slot with a scatter, and the negative mask by comparing
  labels for inequality; it fills the masked-out entries with `+∞` (`−∞`) and reduces each row by minimum (maximum).
  A row's own-slot word, when it is not negative, is used as it stands by the scatter, so the entry it clears in row
  `i` is the gallery row whose number is that word: the positive mask is "equal labels and not the own slot".
-/
import proofs.«411021_j2937757630817_3_alg».proof.Proof.RefRead
import proofs.«411021_j2937757630817_3_alg».proof.Proof.Scatter
import proofs.«411021_j2937757630817_3_alg».proof.Proof.Spec
import Idealize.ShloMosaic.Lib.ValueIdx
import Idealize.ShloMosaic.Lib.Pipeline.Value
import Idealize.ShloMosaic.PureOps.Ideal.Laws
import Idealize.ShloMosaic.Lib.StableHlo.Predicate
import Idealize.ShloMosaic.Lib.Affine

noncomputable section

open Idealize.ShloMosaic Idealize.ShloMosaic.ValueIdx

namespace Cert.ReferenceIdeal.RefValue

open Cert.ReferenceIdeal Cert.ReferenceIdeal.Gen Cert.ReferenceIdeal.ReadP Cert.Mining

/-- The row index `i` with the column `j` put back on the reduced axis is the entry `(i, j)`. -/
theorem lift_row (h : S1024x32768.Reduces [1] S1024) (i : Fin 1024) (j : Fin 32768) :
    h.lift (ix1 i) j = ix2 i j := by
  funext a
  match a with
  | ⟨0, _⟩ => exact Fin.ext rfl
  | ⟨1, _⟩ => exact Fin.ext rfl

/-- The contraction's entry `(i, j)` is the inner product of batch row `i` and gallery row `j`. -/
theorem sim_apply (X : FVec Ideal S1024x512 .f32) (G : FVec Ideal S32768x512 .f32) (i : Fin 1024) (j : Fin 32768) :
    val_main_v0 (F := Ideal) X G (ix2 i j) = sim X G i j := by
  rw [val_main_v0_apply]
  unfold sim
  refine Finset.sum_congr rfl fun k _ => ?_
  have el : lidx_main_v0 (ix2 i j) k = ix2 i k := by
    funext a; match a with | ⟨0, _⟩ => rfl | ⟨1, _⟩ => rfl
  have er : ridx_main_v0 (ix2 i j) k = ix2 j k := by
    funext a; match a with | ⟨0, _⟩ => rfl | ⟨1, _⟩ => rfl
  rw [el, er]

/-- The equal-labels mask at `(i, j)`. -/
theorem eqMask_iff (tg : IVec S1024 32) (fl : IVec S32768 32) (i : Fin 1024) (j : Fin 32768) :
    val_main_v5 (F := Ideal) tg fl (ix2 i j) = 1#1 ↔ sameLabel tg fl i j := by
  rw [val_main_v5_apply, val_main_v3_apply, val_main_v1_apply, val_main_v4_apply, val_main_v2_apply, IntOp.cmpi_eq]
  unfold sameLabel
  have e1 : idx_main_v1 (idx_main_v3 (ix2 i j)) = ix1 i := by
    funext a; match a with | ⟨0, _⟩ => rfl
  have e2 : idx_main_v2 (idx_main_v4 (ix2 i j)) = ix1 j := by
    funext a; match a with | ⟨0, _⟩ => rfl
  rw [e1, e2]

/-- The different-labels mask at `(i, j)`. -/
theorem neMask_iff (tg : IVec S1024 32) (fl : IVec S32768 32) (i : Fin 1024) (j : Fin 32768) :
    val_main_v26 (F := Ideal) tg fl (ix2 i j) = 1#1 ↔ ¬sameLabel tg fl i j := by
  rw [val_main_v26_apply, val_main_v24_apply, val_main_v22_apply, val_main_v25_apply, val_main_v23_apply, IntOp.cmpi_ne]
  unfold sameLabel
  have e1 : idx_main_v22 (idx_main_v24 (ix2 i j)) = ix1 i := by
    funext a; match a with | ⟨0, _⟩ => rfl
  have e2 : idx_main_v23 (idx_main_v25 (ix2 i j)) = ix1 j := by
    funext a; match a with | ⟨0, _⟩ => rfl
  rw [e1, e2]

/-- The fill of the masked-out positives is `⊤`. -/
theorem posFill_apply (p : S1024x32768.Idx) : val_main_call0_v1 (F := Ideal) p = (⊤ : EReal) := by
  rw [val_main_call0_v1_apply, val_main_call0_v0_apply, val_main_cst_apply]
  simp [Ideal.ofBits, Ideal.ieee]

/-- The fill of the masked-out negatives is `⊥`. -/
theorem negFill_apply (p : S1024x32768.Idx) : val_main_call1_v1 (F := Ideal) p = (⊥ : EReal) := by
  rw [val_main_call1_v1_apply, val_main_call1_v0_apply, val_main_cst_5_apply]
  simp [Ideal.ofBits, Ideal.ieee]

/-- Column 0 of the index array at row `n` is the word `n`. -/
theorem idxCol0 (own : IVec S1024 32) (n : Fin 1024) :
    val_main_v19 (F := Ideal) own (ix2 n 0) = BitVec.ofNat 32 n.val := by
  unfold val_main_v19
  rw [concatenate_pair_apply_left (1 : Fin S1024x2.rank) _ _ concatenates_S1024x1_S1024x1_S1024x2_d1 (ix2 n 0) rfl (ix2 n 0)
    (fun b => match b with | ⟨0, _⟩ => rfl | ⟨1, _⟩ => rfl)]
  rw [val_main_v17_apply, val_main_v11_apply, val_main_v8_apply, val_main_v6_apply, val_main_v7_apply, val_main_c_apply]
  have hn := n.isLt
  have hlt : ¬IntOp.cmpi .slt (BitVec.ofNat 32 ((idx_main_v17 (ix2 n (0 : Fin 1)) 0).val)) 0#32 = 1#1 := by
    rw [IntOp.cmpi_slt]
    show ¬(BitVec.ofNat 32 n.val).toInt < (0#32 : BitVec 32).toInt
    rw [StableHlo.Predicate.toInt_ofNat_small n.val (by omega)]
    have h0 : (0#32 : BitVec 32).toInt = 0 := by decide
    rw [h0]; omega
  rw [eq_zero_of_ne_one hlt, select_zero]

/-- Column 1 of the index array at row `n` is the own-slot word of row `n`, when it is not negative. -/
theorem idxCol1 (own : IVec S1024 32) (hown : ∀ n, 0 ≤ (own n).toInt) (n : Fin 1024) :
    val_main_v19 (F := Ideal) own (ix2 n 1) = own (ix1 n) := by
  unfold val_main_v19
  rw [concatenate_pair_apply_right (1 : Fin S1024x2.rank) _ _ concatenates_S1024x1_S1024x1_S1024x2_d1 (ix2 n 1) rfl rfl (ix2 n 0)
    (fun b => match b with | ⟨0, _⟩ => fun _ => rfl | ⟨1, _⟩ => fun hb => absurd rfl hb) rfl]
  rw [val_main_v18_apply, val_main_v16_apply, val_main_v13_apply, val_main_v12_apply, val_main_c_1_apply]
  have e : idx_main_v18 (ix2 n (0 : Fin 1)) = ix1 n := by
    funext a; match a with | ⟨0, _⟩ => rfl
  rw [e]
  have hlt : ¬IntOp.cmpi .slt (own (ix1 n)) 0#32 = 1#1 := by
    rw [IntOp.cmpi_slt]
    have h0 : (0#32 : BitVec 32).toInt = 0 := by decide
    have := hown (ix1 n)
    rw [h0]; omega
  rw [eq_zero_of_ne_one hlt, select_zero]

/-- A word that is not negative is the number `j` exactly when it is the word `j`. -/
theorem toInt_eq_iff (w : BitVec 32) (hw : 0 ≤ w.toInt) (j : Fin 32768) :
    w.toInt = (j.val : Int) ↔ BitVec.ofNat 32 j.val = w := by
  have hj := j.isLt
  constructor
  · intro h
    apply BitVec.eq_of_toInt_eq
    rw [StableHlo.Predicate.toInt_ofNat_small j.val (by omega)]
    exact h.symm
  · intro h
    rw [← h, StableHlo.Predicate.toInt_ofNat_small j.val (by omega)]

/-- The positive mask at `(i, j)`: equal labels, and `j` not row `i`'s own slot. -/
theorem posMask_iff (tg own : IVec S1024 32) (fl : IVec S32768 32) (hown : ∀ n, 0 ≤ (own n).toInt)
    (i : Fin 1024) (j : Fin 32768) :
    val_main_v21 (F := Ideal) tg own fl (ix2 i j) = 1#1 ↔ sameLabel tg fl i j ∧ ¬ownSlot own i j := by
  unfold val_main_v21
  have hrec : scatter_S1024x32768_S1024x2_S1024_n_01_01_1 = rowColScatter := rfl
  have hupd : val_main_v20 (F := Ideal) = fun _ => 0#1 := by
    funext n
    rw [val_main_v20_apply, val_main_c_3_apply]
  rw [hrec, hupd, scatter_set_apply _ _ _ (fun n => by
    rw [idxCol0, StableHlo.Predicate.toInt_ofNat_small n.val (by have := n.isLt; omega)]) i j]
  rw [idxCol1 own hown i]
  have hiff := toInt_eq_iff (own (ix1 i)) (hown (ix1 i)) j
  unfold ownSlot
  by_cases hs : (own (ix1 i)).toInt = (j.val : Int)
  · rw [if_pos hs]
    exact ⟨fun h => absurd h (by decide), fun h => absurd (hiff.1 hs) h.2⟩
  · rw [if_neg hs, eqMask_iff]
    exact ⟨fun h => ⟨h, fun ho => hs (hiff.2 ho)⟩, fun h => h.1⟩

/-- A reduction of the rows of a 1024 × 32768 array by a commutative and associative operation is, at row `i`, the
    fold of the operation from the initial value over the row's 32768 entries. -/
theorem reduce_row {α : Type} (f : α → α → α) [Std.Commutative f] [Std.Associative f] (x : S1024x32768.Idx → α)
    (init : S_.Idx → α) (i : Fin 1024) :
    Host.reduce f x init reducesTo_S1024x32768_S1024_d1 h_S_ (ix1 i)
      = (Finset.univ : Finset (Fin 32768)).fold f (init (Shape.Idx.first h_S_)) (fun j => x (ix2 i j)) := by
  have h : S1024x32768.Reduces [1] S1024 := by decide
  rw [Host.reduce_eq_fold_single f x init reducesTo_S1024x32768_S1024_d1 h h_S_ (ix1 i)]
  show (Finset.univ : Finset (Fin 32768)).fold f (init (Shape.Idx.first h_S_)) (fun j : Fin 32768 => x (h.lift (ix1 i) j)) = _
  refine Finset.fold_congr fun j _ => ?_
  show x (h.lift (ix1 i) j) = x (ix2 i j)
  rw [lift_row h i j]

/-- Row `i`'s minimum over the positives, as the reference computes it. -/
theorem pos_apply (X : FVec Ideal S1024x512 .f32) (G : FVec Ideal S32768x512 .f32) (tg own : IVec S1024 32) (fl : IVec S32768 32)
    (hown : ∀ n, 0 ≤ (own n).toInt) (i : Fin 1024) :
    val_main_v28 (F := Ideal) X G tg own fl (ix1 i)
      = (Finset.univ : Finset (Fin 32768)).fold min ⊤ (posTerm X G tg own fl i) := by
  unfold val_main_v28
  rw [reduce_row]
  have hinit : val_main_cst_4 (F := Ideal) (Shape.Idx.first h_S_) = (⊤ : EReal) := by
    rw [val_main_cst_4_apply]
    simp [Ideal.ofBits, Ideal.ieee]
  rw [hinit]
  refine Finset.fold_congr fun j _ => ?_
  show val_main_v27 (F := Ideal) X G tg own fl (ix2 i j) = posTerm X G tg own fl i j
  rw [val_main_v27_apply, sim_apply, posFill_apply]
  unfold posTerm
  by_cases hm : sameLabel tg fl i j ∧ ¬ownSlot own i j
  · rw [if_pos hm, (posMask_iff tg own fl hown i j).2 hm, select_one]
  · rw [if_neg hm, eq_zero_of_ne_one (fun hb => hm ((posMask_iff tg own fl hown i j).1 hb)), select_zero]

/-- Row `i`'s maximum over the negatives, as the reference computes it. -/
theorem neg_apply (X : FVec Ideal S1024x512 .f32) (G : FVec Ideal S32768x512 .f32) (tg : IVec S1024 32) (fl : IVec S32768 32)
    (i : Fin 1024) :
    val_main_v30 (F := Ideal) X G tg fl (ix1 i)
      = (Finset.univ : Finset (Fin 32768)).fold max ⊥ (negTerm X G tg fl i) := by
  unfold val_main_v30
  rw [reduce_row]
  have hinit : val_main_cst_6 (F := Ideal) (Shape.Idx.first h_S_) = (⊥ : EReal) := by
    rw [val_main_cst_6_apply]
    simp [Ideal.ofBits, Ideal.ieee]
  rw [hinit]
  refine Finset.fold_congr fun j _ => ?_
  show val_main_v29 (F := Ideal) X G tg fl (ix2 i j) = negTerm X G tg fl i j
  rw [val_main_v29_apply, sim_apply, negFill_apply]
  unfold negTerm
  by_cases hm : sameLabel tg fl i j
  · rw [if_pos hm, eq_zero_of_ne_one (fun hb => (neMask_iff tg fl i j).1 hb hm), select_zero]
  · rw [if_neg hm, (neMask_iff tg fl i j).2 hm, select_one]

end Cert.ReferenceIdeal.RefValue

end
-- ==== Proof.PreFacts.lean ====
/-
  What the precondition says of the arguments.

  The printed predicate is a conjunction of three `all`s: every entry of the batch has an absolute value below `+∞`,
  every entry of the gallery likewise, and every own-slot word is at least zero as a signed number.  An extended real
  whose absolute value is below `+∞` is neither infinity, so it is a real number.
-/
import proofs.«411021_j2937757630817_3_alg».proof.Pre_finite_inputs
import Idealize.ShloMosaic.PureOps.Ideal
import Idealize.ShloMosaic.Lib.ReduceAll
import Idealize.ShloMosaic.Lib.ValueIdx

noncomputable section

namespace Cert.Mining

open Idealize.ShloMosaic Cert.Pre_finite_inputs

instance subsingleton_scalarIdx : Subsingleton S_.Idx := ⟨fun a b => funext fun d => d.elim0⟩

/-- The pattern `0x7F800000` is `+∞`. -/
theorem ofBits_posInf : Ideal.ofBits .f32 0x7F800000#32 = (⊤ : EReal) := by simp [Ideal.ofBits, Ideal.ieee]

/-- An extended real with `|x| < +∞` is a real number. -/
theorem real_of_abs_lt_top (x : EReal) (h : Ideal.cmp .olt (max x (-x)) (Ideal.ofBits .f32 0x7F800000#32) = 1#1) :
    ∃ r : ℝ, x = (r : EReal) := by
  rw [ofBits_posInf] at h
  have hlt : max x (-x) < ⊤ := by
    unfold Ideal.cmp at h
    by_contra hn
    simp [hn] at h
  induction x using EReal.rec with
  | bot => exact absurd hlt (by simp)
  | coe r => exact ⟨r, rfl⟩
  | top => exact absurd hlt (by simp)

/-- THE DECODING: under the precondition the batch and the gallery hold real numbers and no own-slot word is negative. -/
theorem facts_of_pre [Facts] (X : FVec Ideal S1024x512 .f32) (G : FVec Ideal S32768x512 .f32) (tg idx : IVec S1024 32)
    (fl : IVec S32768 32) (h : fn (F := Ideal) X G tg idx fl = fun _ => 1#1) :
    (∀ p, ∃ r : ℝ, X p = (r : EReal)) ∧ (∀ p, ∃ r : ℝ, G p = (r : EReal)) ∧ ∀ n, 0 ≤ (idx n).toInt := by
  have h0 := congrFun h ValueIdx.ix0
  dsimp only [fn] at h0
  obtain ⟨h8, h11⟩ := IntOp.andi_eq_one.1 h0
  obtain ⟨h3, h7⟩ := IntOp.andi_eq_one.1 h8
  refine ⟨fun p => ?_, fun p => ?_, fun n => ?_⟩
  · have := Host.reduce_andi_all _ _ _ _ ValueIdx.ix0 h3 p
    exact real_of_abs_lt_top (X p) this
  · have := Host.reduce_andi_all _ _ _ _ ValueIdx.ix0 h7 p
    exact real_of_abs_lt_top (G p) this
  · have := Host.reduce_andi_all _ _ _ _ ValueIdx.ix0 h11 n
    have h' : IntOp.cmpi .sge (idx n) 0#32 = 1#1 := this
    have := IntOp.cmpi_sge.1 h'
    simpa using this

end Cert.Mining

end
-- ==== Proof.Found.lean ====
/-
  What each control case of the kernel's body leaves behind, as values of what it loaded.

  The body runs in three cases.  At the FIRST point of a gallery half it resets the running minimum to `+∞` and the running
  maximum to `−∞`, caches the batch's high and low parts and the lane numbers, and then folds its tile in.  At a MIDDLE
  point it only folds its tile into what the point before left.  At the LAST point of a half it folds its tile in and
  copies the two running values out.  Each lemma reads the stores one case makes to one buffer back as a single term of
  the case's loads: the tile's similarities `k0_pay8`, the two masks `k0_pay9` / `k0_pay10`, folded by `k0_pay1`
  (minimum) and `k0_pay2` (maximum).  A value stored and loaded again inside one run is read through the store.
-/
import proofs.«411021_j2937757630817_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic

namespace Cert.KernelIdeal.Found

open Cert.KernelIdeal Cert.KernelIdeal.Gen

variable {F : FTy → Type} [FloatOps F]

theorem hz2 : (![0, 0] : Fin 2 → Nat) = fun _ => 0 := funext fun a => by fin_cases a <;> rfl

/-! ## The first point of a half -/

/-- The running minimum after the first point: the tile's masked minimum folded into the reset value. -/
theorem first_runMin (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x1 .i32) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S1x1024 .i32) (harg13 : arg13.IsWhole) (hc0 : cond0_0 i) (hc1 : ¬cond0_1 i) (x0 : Vec F S1024x512 .f32) (x1 : Vec F S1024x512 .f32) (x2 : Vec F S1024x1 .i32) (x3 : Vec F S1024x1 .i32) (x4 : Vec F S1x1024 .i32) :
    sout0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 = k0_pay1 (k0_pay8 x1 (k0_pay5 x0) (k0_pay6 x0)) (k0_pay10 i x2 x4 k0_pay7 x3) k0_pay3 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4)]
  unfold kernelRun0_A
  dsimp only
  sl_unfold_words
  rw [View.canon_cons_unit_zero (S := S1024x1) hz2]
  simp only [View.readAt_eq_ld, harg2.read_unread, harg3.read_unread, harg4.read_unread, harg5.read_unread, harg6.read_unread,
    harg9.read_unread, harg10.read_unread, harg11.read_unread, harg12.read_unread, harg13.read_unread,
    View.ld_unit_zero (S := S1024x512) hz2, View.ld_unit_zero (S := S1024x1) hz2, View.ld_unit_zero (S := S1x1024) hz2,
    View.readCov_unit_zero (S := S1024x512) _ hz2, View.readCov_unit_zero (S := S1024x1) _ hz2, View.readCov_unit_zero (S := S1x1024) _ hz2]

/-- The running maximum after the first point. -/
theorem first_runMax (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x1 .i32) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S1x1024 .i32) (harg13 : arg13.IsWhole) (hc0 : cond0_0 i) (hc1 : ¬cond0_1 i) (x0 : Vec F S1024x512 .f32) (x1 : Vec F S1024x512 .f32) (x2 : Vec F S1024x1 .i32) (x3 : Vec F S1024x1 .i32) (x4 : Vec F S1x1024 .i32) :
    sout0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 = k0_pay2 (k0_pay8 x1 (k0_pay5 x0) (k0_pay6 x0)) (k0_pay9 x2 x4) k0_pay4 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4)]
  unfold kernelRun0_A
  dsimp only
  sl_unfold_words
  rw [View.canon_cons_unit_zero (S := S1024x1) hz2]
  simp only [View.readAt_eq_ld, harg2.read_unread, harg3.read_unread, harg4.read_unread, harg5.read_unread, harg6.read_unread,
    harg9.read_unread, harg10.read_unread, harg11.read_unread, harg12.read_unread, harg13.read_unread,
    View.ld_unit_zero (S := S1024x512) hz2, View.ld_unit_zero (S := S1024x1) hz2, View.ld_unit_zero (S := S1x1024) hz2,
    View.readCov_unit_zero (S := S1024x512) _ hz2, View.readCov_unit_zero (S := S1024x1) _ hz2, View.readCov_unit_zero (S := S1x1024) _ hz2]

/-- The cached high part of the batch. -/
theorem first_hi (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x1 .i32) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S1x1024 .i32) (harg13 : arg13.IsWhole) (hc0 : cond0_0 i) (hc1 : ¬cond0_1 i) (x0 : Vec F S1024x512 .f32) (x1 : Vec F S1024x512 .f32) (x2 : Vec F S1024x1 .i32) (x3 : Vec F S1024x1 .i32) (x4 : Vec F S1x1024 .i32) :
    sout0_A_2 c i arg2 harg2 arg3 harg3 arg4 harg4 arg5 harg5 arg6 harg6 arg7 harg7 arg8 harg8 arg9 harg9 arg10 harg10 arg11 harg11 arg12 harg12 arg13 harg13 hc0 hc1 x0 x1 x2 x3 x4 = k0_pay5 x0 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 hc0 hc1 x0 x1 x2 x3 x4)]
  unfold kernelRun0_A
  dsimp only
  sl_unfold_words
  rw [View.canon_unit_zero (S := S1024x512) hz2]
  simp only [View.readAt_eq_ld, harg2.read_unread, harg3.read_unread, harg4.read_unread, harg5.read_unread, harg6.read_unread,
    harg9.read_unread, harg10.read_unread, harg11.read_unread, harg12.read_unread, harg13.read_unread,
    View.ld_unit_zero (S := S1024x512) hz2, View.ld_unit_zero (S := S1024x1) hz2, View.ld_unit_zero (S := S1x1024) hz2,
    View.readCov_unit_zero (S := S1024x512) _ hz2, View.readCov_unit_zero (S := S1024x1) _ hz2, View.readCov_unit_zero (S := S1x1024) _ hz2]

/-- The cached low part of the batch. -/
theorem first_lo (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x1 .i32) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S1x1024 .i32) (harg13 : arg13.IsWhole) (hc0 : cond0_0 i) (hc1 : ¬cond0_1 i) (x0 : Vec F S1024x512 .f32) (x1 : Vec F S1024x512 .f32) (x2 : Vec F S1024x1 .i32) (x3 : Vec F S1024x1 .i32) (x4 : Vec F S1x1024 .i32) :
    sout0_A_3 c i arg2 harg2 arg3 harg3 arg4 harg4 arg5 harg5 arg6 harg6 arg7 harg7 arg8 harg8 arg9 harg9 arg10 harg10 arg11 harg11 arg12 harg12 arg13 harg13 hc0 hc1 x0 x1 x2 x3 x4 = k0_pay6 x0 := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 arg13 harg13 hc0 hc1 x0 x1 x2 x3 x4)]
  unfold kernelRun0_A
  dsimp only
  sl_unfold_words
  rw [View.canon_unit_zero (S := S1024x512) hz2]
  simp only [View.readAt_eq_ld, harg2.read_unread, harg3.read_unread, harg4.read_unread, harg5.read_unread, harg6.read_unread,
    harg9.read_unread, harg10.read_unread, harg11.read_unread, harg12.read_unread, harg13.read_unread,
    View.ld_unit_zero (S := S1024x512) hz2, View.ld_unit_zero (S := S1024x1) hz2, View.ld_unit_zero (S := S1x1024) hz2,
    View.readCov_unit_zero (S := S1024x512) _ hz2, View.readCov_unit_zero (S := S1024x1) _ hz2, View.readCov_unit_zero (S := S1x1024) _ hz2]

/-- The cached lane numbers. -/
theorem first_lanes (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x1 .i32) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S1x1024 .i32) (harg13 : arg13.IsWhole) (hc0 : cond0_0 i) (hc1 : ¬cond0_1 i) (x0 : Vec F S1024x512 .f32) (x1 : Vec F S1024x512 .f32) (x2 : Vec F S1024x1 .i32) (x3 : Vec F S1024x1 .i32) (x4 : Vec F S1x1024 .i32) :
    sout0_A_4 c i arg2 harg2 arg3 harg3 arg4 harg4 arg5 harg5 arg6 harg6 arg7 harg7 arg8 harg8 arg9 harg9 arg10 harg10 arg11 harg11 arg12 harg12 arg13 harg13 hc0 hc1 x0 x1 x2 x3 x4 = k0_pay7 := by
  unfold sout0_A_4
  rw [View.read_writes_eq_canon _ _ _ (scover0_A_4 c i arg2 harg2 arg3 harg3 arg4 harg4 arg5 harg5 arg6 harg6 arg7 harg7 arg8 harg8 arg9 harg9 arg10 harg10 arg11 harg11 arg12 harg12 arg13 harg13 hc0 hc1 x0 x1 x2 x3 x4)]
  unfold kernelRun0_A
  dsimp only
  sl_unfold_words
  rw [View.canon_unit_zero (S := S1x1024) hz2]

/-! ## A middle point -/

/-- The running minimum after a middle point: the tile's masked minimum folded into what the point before left. -/
theorem middle_runMin (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x1 .i32) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S1x1024 .i32) (harg13 : arg13.IsWhole) (hc0 : ¬cond0_0 i) (hc1 : ¬cond0_1 i) (x0 : Vec F S1024x512 .f32) (x1 : Vec F S1024x512 .f32) (x2 : Vec F S1024x1 .i32) (x3 : Vec F S1024x1 .i32) (x4 : Vec F S1x1024 .i32) (xs0 : Vec F S1024x1 .f32) (xs1 : Vec F S1024x1 .f32) (xs2 : Vec F S1024x512 .bf16) (xs3 : Vec F S1024x512 .bf16) (xs4 : Vec F S1x1024 .i32) :
    sout0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 = k0_pay1 (k0_pay8 x1 xs2 xs3) (k0_pay10 i x2 x4 xs4 x3) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4)]
  unfold kernelRun0_B
  dsimp only
  sl_unfold_words
  rw [View.canon_unit_zero (S := S1024x1) hz2]
  simp only [View.readAt_eq_ld, harg2.read_unread, harg3.read_unread, harg4.read_unread, harg5.read_unread, harg6.read_unread,
    harg9.read_unread, harg10.read_unread, harg11.read_unread, harg12.read_unread, harg13.read_unread,
    View.ld_unit_zero (S := S1024x512) hz2, View.ld_unit_zero (S := S1024x1) hz2, View.ld_unit_zero (S := S1x1024) hz2,
    View.readCov_unit_zero (S := S1024x512) _ hz2, View.readCov_unit_zero (S := S1024x1) _ hz2, View.readCov_unit_zero (S := S1x1024) _ hz2]

/-- The running maximum after a middle point. -/
theorem middle_runMax (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x1 .i32) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S1x1024 .i32) (harg13 : arg13.IsWhole) (hc0 : ¬cond0_0 i) (hc1 : ¬cond0_1 i) (x0 : Vec F S1024x512 .f32) (x1 : Vec F S1024x512 .f32) (x2 : Vec F S1024x1 .i32) (x3 : Vec F S1024x1 .i32) (x4 : Vec F S1x1024 .i32) (xs0 : Vec F S1024x1 .f32) (xs1 : Vec F S1024x1 .f32) (xs2 : Vec F S1024x512 .bf16) (xs3 : Vec F S1024x512 .bf16) (xs4 : Vec F S1x1024 .i32) :
    sout0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 = k0_pay2 (k0_pay8 x1 xs2 xs3) (k0_pay9 x2 x4) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4)]
  unfold kernelRun0_B
  dsimp only
  sl_unfold_words
  rw [View.canon_unit_zero (S := S1024x1) hz2]
  simp only [View.readAt_eq_ld, harg2.read_unread, harg3.read_unread, harg4.read_unread, harg5.read_unread, harg6.read_unread,
    harg9.read_unread, harg10.read_unread, harg11.read_unread, harg12.read_unread, harg13.read_unread,
    View.ld_unit_zero (S := S1024x512) hz2, View.ld_unit_zero (S := S1024x1) hz2, View.ld_unit_zero (S := S1x1024) hz2,
    View.readCov_unit_zero (S := S1024x512) _ hz2, View.readCov_unit_zero (S := S1024x1) _ hz2, View.readCov_unit_zero (S := S1x1024) _ hz2]

/-! ## The last point of a half -/

/-- The running minimum after the last point. -/
theorem last_runMin (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x1 .i32) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S1x1024 .i32) (harg13 : arg13.IsWhole) (hc0 : ¬cond0_0 i) (hc1 : cond0_1 i) (x0 : Vec F S1024x512 .f32) (x1 : Vec F S1024x512 .f32) (x2 : Vec F S1024x1 .i32) (x3 : Vec F S1024x1 .i32) (x4 : Vec F S1x1024 .i32) (xs0 : Vec F S1024x1 .f32) (xs1 : Vec F S1024x1 .f32) (xs2 : Vec F S1024x512 .bf16) (xs3 : Vec F S1024x512 .bf16) (xs4 : Vec F S1x1024 .i32) :
    sout0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 = k0_pay1 (k0_pay8 x1 xs2 xs3) (k0_pay10 i x2 x4 xs4 x3) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4)]
  unfold kernelRun0_C
  dsimp only
  sl_unfold_words
  rw [View.canon_unit_zero (S := S1024x1) hz2]
  simp only [View.readAt_eq_ld, harg2.read_unread, harg3.read_unread, harg4.read_unread, harg5.read_unread, harg6.read_unread,
    harg9.read_unread, harg10.read_unread, harg11.read_unread, harg12.read_unread, harg13.read_unread,
    View.ld_unit_zero (S := S1024x512) hz2, View.ld_unit_zero (S := S1024x1) hz2, View.ld_unit_zero (S := S1x1024) hz2,
    View.readCov_unit_zero (S := S1024x512) _ hz2, View.readCov_unit_zero (S := S1024x1) _ hz2, View.readCov_unit_zero (S := S1x1024) _ hz2]

/-- The running maximum after the last point. -/
theorem last_runMax (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x1 .i32) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S1x1024 .i32) (harg13 : arg13.IsWhole) (hc0 : ¬cond0_0 i) (hc1 : cond0_1 i) (x0 : Vec F S1024x512 .f32) (x1 : Vec F S1024x512 .f32) (x2 : Vec F S1024x1 .i32) (x3 : Vec F S1024x1 .i32) (x4 : Vec F S1x1024 .i32) (xs0 : Vec F S1024x1 .f32) (xs1 : Vec F S1024x1 .f32) (xs2 : Vec F S1024x512 .bf16) (xs3 : Vec F S1024x512 .bf16) (xs4 : Vec F S1x1024 .i32) :
    sout0_C_1 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 = k0_pay2 (k0_pay8 x1 xs2 xs3) (k0_pay9 x2 x4) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4)]
  unfold kernelRun0_C
  dsimp only
  sl_unfold_words
  rw [View.canon_unit_zero (S := S1024x1) hz2]
  simp only [View.readAt_eq_ld, harg2.read_unread, harg3.read_unread, harg4.read_unread, harg5.read_unread, harg6.read_unread,
    harg9.read_unread, harg10.read_unread, harg11.read_unread, harg12.read_unread, harg13.read_unread,
    View.ld_unit_zero (S := S1024x512) hz2, View.ld_unit_zero (S := S1024x1) hz2, View.ld_unit_zero (S := S1x1024) hz2,
    View.readCov_unit_zero (S := S1024x512) _ hz2, View.readCov_unit_zero (S := S1024x1) _ hz2, View.readCov_unit_zero (S := S1x1024) _ hz2]

/-- The first output's block at the last point: the running minimum just stored, loaded again. -/
theorem last_outMin (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x1 .i32) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S1x1024 .i32) (harg13 : arg13.IsWhole) (hc0 : ¬cond0_0 i) (hc1 : cond0_1 i) (x0 : Vec F S1024x512 .f32) (x1 : Vec F S1024x512 .f32) (x2 : Vec F S1024x1 .i32) (x3 : Vec F S1024x1 .i32) (x4 : Vec F S1x1024 .i32) (xs0 : Vec F S1024x1 .f32) (xs1 : Vec F S1024x1 .f32) (xs2 : Vec F S1024x512 .bf16) (xs3 : Vec F S1024x512 .bf16) (xs4 : Vec F S1x1024 .i32) :
    out0_C_5 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 = k0_pay1 (k0_pay8 x1 xs2 xs3) (k0_pay10 i x2 x4 xs4 x3) xs0 := by
  unfold out0_C_5
  rw [View.read_writes_eq_canon _ _ _ (cover0_C_5 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4)]
  unfold kernelRun0_C
  dsimp only
  sl_unfold_words
  rw [View.canon_unit_zero (S := S1024x1) hz2]
  simp only [View.readAt_eq_ld, harg2.read_unread, harg3.read_unread, harg4.read_unread, harg5.read_unread, harg6.read_unread,
    harg9.read_unread, harg10.read_unread, harg11.read_unread, harg12.read_unread, harg13.read_unread,
    View.ld_unit_zero (S := S1024x512) hz2, View.ld_unit_zero (S := S1024x1) hz2, View.ld_unit_zero (S := S1x1024) hz2,
    View.readCov_unit_zero (S := S1024x512) _ hz2, View.readCov_unit_zero (S := S1024x1) _ hz2, View.readCov_unit_zero (S := S1x1024) _ hz2]

/-- The second output's block at the last point: the running maximum just stored, loaded again. -/
theorem last_outMax (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x1 .i32) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S1x1024 .i32) (harg13 : arg13.IsWhole) (hc0 : ¬cond0_0 i) (hc1 : cond0_1 i) (x0 : Vec F S1024x512 .f32) (x1 : Vec F S1024x512 .f32) (x2 : Vec F S1024x1 .i32) (x3 : Vec F S1024x1 .i32) (x4 : Vec F S1x1024 .i32) (xs0 : Vec F S1024x1 .f32) (xs1 : Vec F S1024x1 .f32) (xs2 : Vec F S1024x512 .bf16) (xs3 : Vec F S1024x512 .bf16) (xs4 : Vec F S1x1024 .i32) :
    out0_C_6 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 = k0_pay2 (k0_pay8 x1 xs2 xs3) (k0_pay9 x2 x4) xs1 := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4)]
  unfold kernelRun0_C
  dsimp only
  sl_unfold_words
  rw [View.canon_unit_zero (S := S1024x1) hz2]
  simp only [View.readAt_eq_ld, harg2.read_unread, harg3.read_unread, harg4.read_unread, harg5.read_unread, harg6.read_unread,
    harg9.read_unread, harg10.read_unread, harg11.read_unread, harg12.read_unread, harg13.read_unread,
    View.ld_unit_zero (S := S1024x512) hz2, View.ld_unit_zero (S := S1024x1) hz2, View.ld_unit_zero (S := S1x1024) hz2,
    View.readCov_unit_zero (S := S1024x512) _ hz2, View.readCov_unit_zero (S := S1024x1) _ hz2, View.readCov_unit_zero (S := S1x1024) _ hz2]

end Cert.KernelIdeal.Found

end
-- ==== Proof.Tile.lean ====
/-
  One grid point's masks and folds, read at an index over the extended reals.

  The positive mask asks for equal labels and a lane that is not the row's own slot; the negative fill asks for equal
  labels.  The tile is then folded: the minimum over the lanes of the similarities kept by the positive mask (`+∞`
  elsewhere) into the running minimum, the maximum of those kept by the negative fill (`−∞` where the labels agree) into
  the running maximum.
-/
import proofs.«411021_j2937757630817_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.Tile

open Cert.KernelIdeal Cert.KernelIdeal.Gen

/-! ## Layout readings at the literal shapes -/

/-- A column of 1024 rows broadcast over 1024 lanes reads, at (row `i`, lane `l`), the column at row `i`. -/
private theorem bcastCol_apply {α : Type} (v : S1024x1.Idx → α) (i l : Fin 1024) :
    broadcastTo S1024x1024 v broadcasts_S1024x1_S1024x1024 (ix2 i l) = v (ix2 i (0 : Fin 1)) := by
  refine broadcastTo_apply v _ (ix2 i l) (ix2 i (0 : Fin 1)) fun ax => ?_
  match ax with
  | ⟨0, _⟩ => rfl
  | ⟨1, _⟩ => rfl

/-- A row of 1024 lanes broadcast over 1024 rows reads, at (row `i`, lane `l`), the row at lane `l`. -/
private theorem bcastRow_apply {α : Type} (v : S1x1024.Idx → α) (i l : Fin 1024) :
    broadcastTo S1024x1024 v broadcasts_S1x1024_S1024x1024 (ix2 i l) = v (ix2 (0 : Fin 1) l) :=
  broadcastTo_1b_ab_apply v _ i l

/-- A vector of 1024 cast to a column `[1024, 1]` reads, at (row `i`, 0), the vector at `i`: both have row-major
    position `i`. -/
private theorem castCol_apply {α : Type} (v : S1024.Idx → α) (i : Fin 1024) :
    shapeCast S1024x1 v shapeCasts_S1024_S1024x1 (ix2 i (0 : Fin 1)) = v (ix1 i) :=
  shapeCast_apply v _ _ _ (by
    rw [Shape.rowMajor_val_one, Shape.rowMajor_val_two]
    show i.val = i.val * 1 + 0
    omega)

/-- The tile index over row `i` with lane `l` put back on the reduced axis is (`i`, `l`). -/
private theorem lift_row (i l : Fin 1024) : reduces_S1024x1024_S1024.lift (ix1 i) l = ix2 i l := by
  funext c
  match c with
  | ⟨0, _⟩ => exact Fin.ext rfl
  | ⟨1, _⟩ => exact Fin.ext rfl

/-! ## Words -/

/-- On one bit, `c xor 1` is set exactly when `c` is not. -/
private theorem xori_one_eq_one (c : BitVec 1) : IntOp.xori c 1#1 = 1#1 ↔ ¬c = 1#1 := by revert c; decide

/-- The gallery row number of lane `l` of the tile at grid point (`a`, `b`): `a · 16384 + b · 1024 + l = (16 a + b) · 1024 + l`,
    as 32-bit words. -/
private theorem word_eq (a b l : Nat) :
    BitVec.ofNat 32 a * 16384#32 + BitVec.ofNat 32 b * 1024#32 + BitVec.ofNat 32 l
      = BitVec.ofNat 32 ((a * 16 + b) * 1024 + l) := by
  rw [← BitVec.ofNat_mul, ← BitVec.ofNat_mul, ← BitVec.ofNat_add, ← BitVec.ofNat_add]
  congr 1
  ring

/-! ## The two infinities and the lane folds -/

/-- The pattern `0x7F800000` is `+∞`, -/
private theorem ofBits_posInf : FloatOps.ofBits (F := Ideal) .f32 0x7F800000#32 = (⊤ : EReal) := by
  show Ideal.ofBits .f32 0x7F800000#32 = ⊤
  simp [Ideal.ofBits, Ideal.ieee]

/-- and `0xFF800000` is `−∞`. -/
private theorem ofBits_negInf : FloatOps.ofBits (F := Ideal) .f32 0xFF800000#32 = (⊥ : EReal) := by
  show Ideal.ofBits .f32 0xFF800000#32 = ⊥
  simp [Ideal.ofBits, Ideal.ieee]

/-- A minimum reduction over one axis, read over the extended reals: the fold of `min` from the accumulator's value over
    that axis's coordinates (`min` commutes and associates, so the set of indices over `j` may be folded through the
    coordinates of the reduced axis). -/
private theorem multiReduction_minimumf_single {φ : FTy} {s t : Shape} {a : Fin s.rank} (src : FVec Ideal s φ)
    (acc : BitVec φ.bits) (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The lane minimum of a tile at row `i`: the fold of `min` from `+∞` over the row's lanes. -/
private theorem rowMin_apply (v : FVec Ideal S1024x1024 .f32) (hφ : FKind.Formats .f32)
    (hacc : (0x7F800000#32 : BitVec 32) = 0x7F800000#32) (i : Fin 1024) :
    multiReduction (F := Ideal) .minimumf [1] S1024 v 0x7F800000#32 reduces_S1024x1024_S1024 hφ hacc (ix1 i)
      = (Finset.univ : Finset (Fin 1024)).fold min ⊤ (fun l => v (ix2 i l)) := by
  refine (multiReduction_minimumf_single v 0x7F800000#32 reduces_S1024x1024_S1024 hφ hacc (ix1 i)).trans ?_
  have hf : (v ∘ reduces_S1024x1024_S1024.lift (ix1 i)) = fun l : Fin 1024 => v (ix2 i l) :=
    funext fun l => congrArg v (lift_row i l)
  rw [ofBits_posInf, hf]
  rfl

/-- The lane maximum of a tile at row `i`: the fold of `max` from `−∞` over the row's lanes. -/
private theorem rowMax_apply (v : FVec Ideal S1024x1024 .f32) (hφ : FKind.Formats .f32)
    (hacc : (0xFF800000#32 : BitVec 32) = 0xFF800000#32) (i : Fin 1024) :
    multiReduction (F := Ideal) .maximumf [1] S1024 v 0xFF800000#32 reduces_S1024x1024_S1024 hφ hacc (ix1 i)
      = (Finset.univ : Finset (Fin 1024)).fold max ⊥ (fun l => v (ix2 i l)) := by
  refine (Ideal.multiReduction_maximumf_single v 0xFF800000#32 reduces_S1024x1024_S1024 hφ hacc (ix1 i)).trans ?_
  have hf : (v ∘ reduces_S1024x1024_S1024.lift (ix1 i)) = fun l : Fin 1024 => v (ix2 i l) :=
    funext fun l => congrArg v (lift_row i l)
  rw [ofBits_negInf, hf]
  rfl

/-! ## The masks -/

/-- The labels agree at (row `i`, lane `l`). -/
theorem raw_apply (tg : Vec Ideal S1024x1 .i32) (fl : Vec Ideal S1x1024 .i32) (i l : Fin 1024) :
    k0_pay9 (F := Ideal) tg fl (ix2 i l) = 1#1 ↔ tg (ix2 i 0) = fl (ix2 0 l) := by
  -- the comparison of the row's label, broadcast over the lanes, with the lane's label, broadcast over the rows
  unfold k0_pay9
  rw [shapeCast_self, shapeCast_self]
  show IntOp.cmpi .eq (broadcastTo S1024x1024 tg broadcasts_S1024x1_S1024x1024 (ix2 i l))
      (broadcastTo S1024x1024 fl broadcasts_S1x1024_S1024x1024 (ix2 i l)) = 1#1 ↔ _
  rw [bcastCol_apply, bcastRow_apply, IntOp.cmpi_eq]

/-- The cached lane numbers: lane `l` holds the word `l`. -/
theorem lanes_apply (l : Fin 1024) : k0_pay7 (ix2 (0 : Fin 1) l) = BitVec.ofNat 32 l.val := by
  unfold k0_pay7
  rw [shapeCast_self, iota_single_apply]

/-- The positive mask at (row `i`, lane `l`) of the point with coordinates `p`: equal labels, and the lane's gallery row
    number `(16 p₀ + p₁) · 1024 + l` is not the row's own-slot word. -/
theorem mask_apply (p : grid0.Coords) (tg own : Vec Ideal S1024x1 .i32) (fl : Vec Ideal S1x1024 .i32) (i l : Fin 1024) :
    k0_pay10 (F := Ideal) p tg fl k0_pay7 own (ix2 i l) = 1#1
      ↔ tg (ix2 i 0) = fl (ix2 0 l) ∧ ¬BitVec.ofNat 32 (((p 0).val * 16 + (p 1).val) * 1024 + l.val) = own (ix2 i 0) := by
  -- the conjunction of the label mask with the negation of "the lane's row number is the row's own slot"
  unfold k0_pay10
  rw [shapeCast_self]
  show IntOp.andi (k0_pay9 (F := Ideal) tg fl (ix2 i l))
      (IntOp.xori (IntOp.cmpi .eq (broadcastTo S1024x1024 _ broadcasts_S1x1024_S1024x1024 (ix2 i l))
        (broadcastTo S1024x1024 own broadcasts_S1024x1_S1024x1024 (ix2 i l))) 1#1) = 1#1 ↔ _
  rw [bcastRow_apply, bcastCol_apply, IntOp.andi_eq_one, raw_apply, xori_one_eq_one, IntOp.cmpi_eq]
  -- the lane's row number: the tile's base word plus the lane number
  have hw : addi (broadcast S1x1024 (Scalar.addi (Scalar.muli (BitVec.ofNat 32 (p 0).val) 16384#32)
        (Scalar.muli (BitVec.ofNat 32 (p 1).val) 1024#32))) k0_pay7 (ix2 (0 : Fin 1) l)
      = BitVec.ofNat 32 (((p 0).val * 16 + (p 1).val) * 1024 + l.val) := by
    show BitVec.ofNat 32 (p 0).val * 16384#32 + BitVec.ofNat 32 (p 1).val * 1024#32 + k0_pay7 (ix2 (0 : Fin 1) l) = _
    rw [lanes_apply, word_eq]
  rw [hw]

/-! ## The reset values and the running folds -/

/-- The reset value of the running minimum is `+∞`, -/
theorem resetMin_apply (i : Fin 1024) : k0_pay3 (F := Ideal) (ix2 i (0 : Fin 1)) = (⊤ : EReal) := by
  unfold k0_pay3
  rw [shapeCast_self]
  exact ofBits_posInf

/-- and of the running maximum `−∞`. -/
theorem resetMax_apply (i : Fin 1024) : k0_pay4 (F := Ideal) (ix2 i (0 : Fin 1)) = (⊥ : EReal) := by
  unfold k0_pay4
  rw [shapeCast_self]
  exact ofBits_negInf

/-- The running minimum after a tile: the value before, and the tile's similarities where the mask is set. -/
theorem runMin_apply (s : FVec Ideal S1024x1024 .f32) (mk : IVec S1024x1024 1) (prev : Vec Ideal S1024x1 .f32) (i : Fin 1024) :
    k0_pay1 (F := Ideal) s mk prev (ix2 i (0 : Fin 1))
      = min (prev (ix2 i 0)) ((Finset.univ : Finset (Fin 1024)).fold min ⊤ (fun l => if mk (ix2 i l) = 1#1 then s (ix2 i l) else ⊤)) := by
  unfold k0_pay1
  rw [shapeCast_self, minimumf_apply, castCol_apply]
  refine congrArg (min (prev (ix2 i 0))) ((rowMin_apply _ _ _ i).trans (Finset.fold_congr fun l _ => ?_))
  -- lane by lane: the similarity where the mask's bit is set, `+∞` where it is not
  rw [select_apply, broadcast_apply, ofBits_posInf]
  by_cases h : mk (ix2 i l) = 1#1
  · rw [h, select_one, if_pos rfl]
  · rw [eq_zero_of_ne_one h, select_zero, if_neg (by decide)]

/-- The running maximum after a tile: the value before, and the tile's similarities where the labels differ. -/
theorem runMax_apply (s : FVec Ideal S1024x1024 .f32) (eq : IVec S1024x1024 1) (prev : Vec Ideal S1024x1 .f32) (i : Fin 1024) :
    k0_pay2 (F := Ideal) s eq prev (ix2 i (0 : Fin 1))
      = max (prev (ix2 i 0)) ((Finset.univ : Finset (Fin 1024)).fold max ⊥ (fun l => if eq (ix2 i l) = 1#1 then ⊥ else s (ix2 i l))) := by
  unfold k0_pay2
  rw [shapeCast_self, maximumf_apply, castCol_apply]
  refine congrArg (max (prev (ix2 i 0))) ((rowMax_apply _ _ _ i).trans (Finset.fold_congr fun l _ => ?_))
  -- lane by lane: `−∞` where the labels agree, the similarity where they do not
  rw [select_apply, broadcast_apply, ofBits_negInf]
  by_cases h : eq (ix2 i l) = 1#1
  · rw [h, select_one, if_pos rfl]
  · rw [eq_zero_of_ne_one h, select_zero, if_neg (by decide)]

end Cert.KernelIdeal.Tile

end
-- ==== Proof.TileSim.lean ====
/-
  One grid point's tile of similarities, read at an index over the extended reals.

  The body splits each operand into a high part (the operand itself, since a change of format is the identity here) and
  a low part (the operand minus itself), and adds three products: high·high, high·low, low·high, each a contraction over
  the 512 features into a zero accumulator.  For real operands the low parts are zero, a sum of products with a zero
  factor is zero, and so the tile's entry at (row, lane) is the plain inner product of the batch row and the tile's
  gallery row.
-/
import proofs.«411021_j2937757630817_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.Tile

open Cert.KernelIdeal Cert.KernelIdeal.Gen

/-- A real number minus itself is zero in the extended reals. -/
theorem sub_self_of_real (x : EReal) (h : ∃ r : ℝ, x = (r : EReal)) : x - x = 0 := by
  obtain ⟨r, hr⟩ := h
  rw [hr, ← EReal.coe_sub, sub_self, EReal.coe_zero]

/-- The left operand's index on axis 0 is the output's row. -/
theorem lhs_tile_0 (j : S1024x1024.Idx) (q : dot_S1024x512_S1024x512_S1024x1024_1_1_0_0_n_n.contr.Idx) :
    (dot_S1024x512_S1024x512_S1024x1024_1_1_0_0_n_n.lhsIdx j q 0).val = (j 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
/-- The left operand's index on axis 1 is the contraction coordinate. -/
theorem lhs_tile_1 (j : S1024x1024.Idx) (q : dot_S1024x512_S1024x512_S1024x1024_1_1_0_0_n_n.contr.Idx) :
    (dot_S1024x512_S1024x512_S1024x1024_1_1_0_0_n_n.lhsIdx j q 1).val = (q ⟨0, by decide⟩).val :=
  dot_S1024x512_S1024x512_S1024x1024_1_1_0_0_n_n.lhsIdx_val_of_single rfl j q
/-- The right operand's index on axis 0 is the output's lane. -/
theorem rhs_tile_0 (j : S1024x1024.Idx) (q : dot_S1024x512_S1024x512_S1024x1024_1_1_0_0_n_n.contr.Idx) :
    (dot_S1024x512_S1024x512_S1024x1024_1_1_0_0_n_n.rhsIdx j q 0).val = (j 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
/-- The right operand's index on axis 1 is the contraction coordinate. -/
theorem rhs_tile_1 (j : S1024x1024.Idx) (q : dot_S1024x512_S1024x512_S1024x1024_1_1_0_0_n_n.contr.Idx) :
    (dot_S1024x512_S1024x512_S1024x1024_1_1_0_0_n_n.rhsIdx j q 1).val = (q ⟨0, by decide⟩).val :=
  dot_S1024x512_S1024x512_S1024x1024_1_1_0_0_n_n.rhsIdx_val_of_single rfl j q

/-- A contraction over the 512 features into the zero accumulator, read at (row `i`, lane `l`): the inner product of the
    left operand's row `i` and the right operand's row `l`. -/
theorem matmul_apply (lhs rhs : FVec Ideal S1024x512 .bf16) (i l : Fin 1024) :
    matmul (F := Ideal) dot_S1024x512_S1024x512_S1024x1024_1_1_0_0_n_n none lhs rhs (constant (F := Ideal) S1024x1024 .f32 0x00000000#32) (ix2 i l)
      = ∑ k : Fin 512, lhs (ix2 i k) * rhs (ix2 l k) := by
  simp only [matmul]
  rw [Ideal.matmul_constant_zero_apply, ← Equiv.sum_comp (ValueIdx.contrEquiv1 dot_S1024x512_S1024x512_S1024x1024_1_1_0_0_n_n 512 rfl rfl).symm]
  refine Finset.sum_congr rfl fun k _ => ?_
  have hk := ValueIdx.contrEquiv1_symm_val dot_S1024x512_S1024x512_S1024x1024_1_1_0_0_n_n 512 rfl rfl k
  have el : dot_S1024x512_S1024x512_S1024x1024_1_1_0_0_n_n.lhsIdx (ix2 i l) ((ValueIdx.contrEquiv1 dot_S1024x512_S1024x512_S1024x1024_1_1_0_0_n_n 512 rfl rfl).symm k) = ix2 i k := funext fun a => Fin.ext (by
    match a with
    | ⟨0, _⟩ => exact lhs_tile_0 _ _
    | ⟨1, _⟩ => exact (lhs_tile_1 _ _).trans hk)
  have er : dot_S1024x512_S1024x512_S1024x1024_1_1_0_0_n_n.rhsIdx (ix2 i l) ((ValueIdx.contrEquiv1 dot_S1024x512_S1024x512_S1024x1024_1_1_0_0_n_n 512 rfl rfl).symm k) = ix2 l k := funext fun a => Fin.ext (by
    match a with
    | ⟨0, _⟩ => exact rhs_tile_0 _ _
    | ⟨1, _⟩ => exact (rhs_tile_1 _ _).trans hk)
  rw [el, er]

/-- The tile of similarities at (row `i`, lane `l`): for real operands, the inner product of batch row `i` and the tile's
    gallery row `l`. -/
theorem sim_apply (g : Vec Ideal S1024x512 .f32) (a : Vec Ideal S1024x512 .f32)
    (hg : ∀ p, ∃ r : ℝ, g p = (r : EReal)) (ha : ∀ p, ∃ r : ℝ, a p = (r : EReal)) (i l : Fin 1024) :
    k0_pay8 (F := Ideal) g (k0_pay5 a) (k0_pay6 a) (ix2 i l) = ∑ k : Fin 512, a (ix2 i k) * g (ix2 l k) := by
  unfold k0_pay8 k0_pay5 k0_pay6
  rw [addf_apply, addf_apply, matmul_apply, matmul_apply, matmul_apply]
  simp only [shapeCast_self, truncf_apply, subf_apply]
  have hlow_g : ∑ k : Fin 512, a (ix2 i k) * (g (ix2 l k) - g (ix2 l k)) = 0 :=
    Finset.sum_eq_zero fun k _ => by rw [sub_self_of_real _ (hg _), mul_zero]
  have hlow_a : ∑ k : Fin 512, (a (ix2 i k) - a (ix2 i k)) * g (ix2 l k) = 0 :=
    Finset.sum_eq_zero fun k _ => by rw [sub_self_of_real _ (ha _), zero_mul]
  rw [hlow_g, hlow_a, add_zero, add_zero]

end Cert.KernelIdeal.Tile

end
-- ==== Proof.Carry.lean ====
/-
  The buffers the kernel carries from one grid point to the next, read as values of the arguments.

  The grid has 32 points: 2 gallery halves of 16 tiles each.  Point `t` streams gallery rows `t * 1024 + l`.  Five buffers
  survive from point to point: the running minimum over the positives and the running maximum over the negatives (one
  entry per batch row), the batch's high and low parts, and the lane numbers 0 … 1023.  The last three are written once,
  at a half's first point, and only read afterwards.  The first two are reset at a half's first point and then updated
  by every point: after point `t` row `i` holds the minimum (maximum) of row `i`'s terms over the tiles of `t`'s half met
  so far — the specification's `accMin` / `accMax`.  The proof is an induction on the point; what each case of the body
  leaves is read off the stores the run found, the tile's arithmetic off the payload lemmas.
-/
import proofs.«411021_j2937757630817_3_alg».proof.Proof.Gen.KernelIdeal.Frame
import proofs.«411021_j2937757630817_3_alg».proof.Proof.Found
import proofs.«411021_j2937757630817_3_alg».proof.Proof.Tile
import proofs.«411021_j2937757630817_3_alg».proof.Proof.TileSim
import proofs.«411021_j2937757630817_3_alg».proof.Proof.Spec
import Idealize.ShloMosaic.Lib.Pipeline.Value
import Idealize.ShloMosaic.Lib.ValueIdx
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Carry

open Cert.KernelIdeal Cert.KernelIdeal.Gen Cert.Mining

variable (m : (ℓ : Loc nD τ sig) → Buf (Elt Ideal) ℓ)

/-! ## The arguments and the windows' blocks -/

/-- The arguments as the region finds them. -/
abbrev batch (c : Dev nD) : (⟨2, ![1024, 512]⟩ : Shape).Idx → EReal := V m c main_arg0
abbrev gallery (c : Dev nD) : (⟨2, ![32768, 512]⟩ : Shape).Idx → EReal := V m c main_arg1
abbrev targets (c : Dev nD) : (⟨1, ![1024]⟩ : Shape).Idx → BitVec 32 := V m c main_arg2
abbrev ownSlots (c : Dev nD) : (⟨1, ![1024]⟩ : Shape).Idx → BitVec 32 := V m c main_arg3
abbrev labels (c : Dev nD) : (⟨1, ![32768]⟩ : Shape).Idx → BitVec 32 := V m c main_arg4

/-- The five input blocks of point `t`, at their literal types. -/
abbrev batchBlk (c : Dev nD) (t : Fin cfg0.N) : Vec Ideal S1024x512 .f32 := iblk m c 0 t
abbrev galBlk (c : Dev nD) (t : Fin cfg0.N) : Vec Ideal S1024x512 .f32 := iblk m c 1 t
abbrev tgBlk (c : Dev nD) (t : Fin cfg0.N) : Vec Ideal S1024x1 .i32 := iblk m c 2 t
abbrev ownBlk (c : Dev nD) (t : Fin cfg0.N) : Vec Ideal S1024x1 .i32 := iblk m c 3 t
abbrev flBlk (c : Dev nD) (t : Fin cfg0.N) : Vec Ideal S1x1024 .i32 := iblk m c 4 t

/-- The printed index maps over the grid: the batch, the targets and the own slots are one block; the gallery and its
    labels are cut into 32 tiles, point `t` taking tile `t`; the outputs are cut into the two halves; and a point's number is
    sixteen times its half plus its position in the half. -/
theorem index_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = t.val
    ∧ win0_5.index t (0 : Fin 2) = t.val / 16 ∧ win0_5.index t (1 : Fin 2) = 0
    ∧ win0_6.index t (0 : Fin 2) = t.val / 16 ∧ win0_6.index t (1 : Fin 2) = 0
    ∧ ((grid0.coords t) 0).val * 16 + ((grid0.coords t) 1).val = t.val :=
  (by decide +kernel : ∀ t : Fin grid0.N, _)

theorem lt32 (t : Fin cfg0.N) : t.val < 32 := lt_of_lt_of_eq t.isLt (show cfg0.N = 32 from N_0)

/-- The batch's block is the whole batch at every point. -/
theorem batchBlk_apply (c : Dev nD) (t : Fin cfg0.N) (i : Fin 1024) (k : Fin 512) :
    batchBlk m c t (ix2 i k) = batch m c (ix2 i k) := by
  show V m c main_arg0 (((cfg0.win 0).blk t).view.emb (ix2 i k)) = V m c main_arg0 _
  refine congrArg _ (funext fun a => Fin.ext ?_)
  obtain ⟨h0, h1, -⟩ := index_facts t
  match a with
  | ⟨0, _⟩ =>
    show win0_0.index t 0 * 1024 + 1 * i.val = i.val
    rw [h0]; omega
  | ⟨1, _⟩ =>
    show win0_0.index t 1 * 512 + 1 * k.val = k.val
    rw [h1]; omega

/-- The gallery's block at point `t` is rows `t * 1024 + l`. -/
theorem galBlk_apply (c : Dev nD) (t : Fin cfg0.N) (l : Fin 1024) (k : Fin 512) :
    galBlk m c t (ix2 l k) = gallery m c (ix2 (col t.val (lt32 t) l) k) := by
  show V m c main_arg1 (((cfg0.win 1).blk t).view.emb (ix2 l k)) = V m c main_arg1 _
  refine congrArg _ (funext fun a => Fin.ext ?_)
  obtain ⟨-, -, h0, h1, -⟩ := index_facts t
  match a with
  | ⟨0, _⟩ =>
    show win0_1.index t 0 * 1024 + 1 * l.val = t.val * 1024 + l.val
    rw [h0]; omega
  | ⟨1, _⟩ =>
    show win0_1.index t 1 * 512 + 1 * k.val = k.val
    rw [h1]; omega

/-- The three host lines before the region view the targets and the own slots as columns and the labels as a row. -/
theorem V_tgCol (c : Dev nD) : (V m c main_v0 : S1024x1.Idx → BitVec 32) = shapeCast S1024x1 (targets m c) shapeCasts_S1024_S1024x1 := by
  show _ = shapeCast S1024x1 (V m c main_arg2 : S1024.Idx → BitVec 32) shapeCasts_S1024_S1024x1
  rw [V_main_arg2]
  show StableHlo.after hostOps0 (fun b => m (c, b)) (Proc.devRef .tc main_v0) = _
  after_results
  rfl

theorem V_ownCol (c : Dev nD) : (V m c main_v1 : S1024x1.Idx → BitVec 32) = shapeCast S1024x1 (ownSlots m c) shapeCasts_S1024_S1024x1 := by
  show _ = shapeCast S1024x1 (V m c main_arg3 : S1024.Idx → BitVec 32) shapeCasts_S1024_S1024x1
  rw [V_main_arg3]
  show StableHlo.after hostOps0 (fun b => m (c, b)) (Proc.devRef .tc main_v1) = _
  after_results
  rfl

theorem V_flRow (c : Dev nD) : (V m c main_v2 : S1x32768.Idx → BitVec 32) = shapeCast S1x32768 (labels m c) shapeCasts_S32768_S1x32768 := by
  show _ = shapeCast S1x32768 (V m c main_arg4 : S32768.Idx → BitVec 32) shapeCasts_S32768_S1x32768
  rw [V_main_arg4]
  show StableHlo.after hostOps0 (fun b => m (c, b)) (Proc.devRef .tc main_v2) = _
  after_results
  rfl

/-- The targets' block at row `i` is target `i`. -/
theorem tgBlk_apply (c : Dev nD) (t : Fin cfg0.N) (i : Fin 1024) :
    tgBlk m c t (ix2 i (0 : Fin 1)) = targets m c (ix1 i) := by
  have e : tgBlk m c t (ix2 i (0 : Fin 1)) = (V m c main_v0 : S1024x1.Idx → BitVec 32) (ix2 i (0 : Fin 1)) := by
    show V m c main_v0 (((cfg0.win 2).blk t).view.emb (ix2 i (0 : Fin 1))) = V m c main_v0 _
    refine congrArg _ (funext fun a => Fin.ext ?_)
    obtain ⟨-, -, -, -, h0, h1, -⟩ := index_facts t
    match a with
    | ⟨0, _⟩ =>
      show win0_2.index t 0 * 1024 + 1 * i.val = i.val
      rw [h0]; omega
    | ⟨1, _⟩ =>
      show win0_2.index t 1 * 1 + 1 * 0 = 0
      rw [h1]
  rw [e, V_tgCol]
  exact shapeCast_apply _ _ _ (ix1 i) (by rw [Shape.rowMajor_val_one, Shape.rowMajor_val_two]; show i.val = i.val * 1 + 0; omega)

/-- The own slots' block at row `i` is own-slot word `i`. -/
theorem ownBlk_apply (c : Dev nD) (t : Fin cfg0.N) (i : Fin 1024) :
    ownBlk m c t (ix2 i (0 : Fin 1)) = ownSlots m c (ix1 i) := by
  have e : ownBlk m c t (ix2 i (0 : Fin 1)) = (V m c main_v1 : S1024x1.Idx → BitVec 32) (ix2 i (0 : Fin 1)) := by
    show V m c main_v1 (((cfg0.win 3).blk t).view.emb (ix2 i (0 : Fin 1))) = V m c main_v1 _
    refine congrArg _ (funext fun a => Fin.ext ?_)
    obtain ⟨-, -, -, -, -, -, h0, h1, -⟩ := index_facts t
    match a with
    | ⟨0, _⟩ =>
      show win0_3.index t 0 * 1024 + 1 * i.val = i.val
      rw [h0]; omega
    | ⟨1, _⟩ =>
      show win0_3.index t 1 * 1 + 1 * 0 = 0
      rw [h1]
  rw [e, V_ownCol]
  exact shapeCast_apply _ _ _ (ix1 i) (by rw [Shape.rowMajor_val_one, Shape.rowMajor_val_two]; show i.val = i.val * 1 + 0; omega)

/-- The labels' block at point `t`, lane `l`, is the label of gallery row `t * 1024 + l`. -/
theorem flBlk_apply (c : Dev nD) (t : Fin cfg0.N) (l : Fin 1024) :
    flBlk m c t (ix2 (0 : Fin 1) l) = labels m c (ix1 (col t.val (lt32 t) l)) := by
  have e : flBlk m c t (ix2 (0 : Fin 1) l)
      = (V m c main_v2 : S1x32768.Idx → BitVec 32) (ix2 (0 : Fin 1) (col t.val (lt32 t) l)) := by
    show V m c main_v2 (((cfg0.win 4).blk t).view.emb (ix2 (0 : Fin 1) l)) = V m c main_v2 _
    refine congrArg _ (funext fun a => Fin.ext ?_)
    obtain ⟨-, -, -, -, -, -, -, -, h0, h1, -⟩ := index_facts t
    match a with
    | ⟨0, _⟩ =>
      show win0_4.index t 0 * 1 + 1 * 0 = 0
      rw [h0]
    | ⟨1, _⟩ =>
      show win0_4.index t 1 * 1024 + 1 * l.val = t.val * 1024 + l.val
      rw [h1]; omega
  rw [e, V_flRow]
  exact shapeCast_apply _ _ _ (ix1 (col t.val (lt32 t) l)) (by
    rw [Shape.rowMajor_val_one, Shape.rowMajor_val_two]
    show (col t.val (lt32 t) l).val = 0 * 32768 + (col t.val (lt32 t) l).val; omega)

/-! ## One tile -/

/-- Row `i`'s terms of the two reductions, over the arguments. -/
abbrev posφ (c : Dev nD) (i : Fin 1024) : Fin 32768 → EReal :=
  posTerm (batch m c) (gallery m c) (targets m c) (ownSlots m c) (labels m c) i
abbrev negφ (c : Dev nD) (i : Fin 1024) : Fin 32768 → EReal :=
  negTerm (batch m c) (gallery m c) (targets m c) (labels m c) i

/-- The tile's similarity at (row `i`, lane `l`) is the similarity of batch row `i` and gallery row `t * 1024 + l`, when
    the cached parts are those of (a copy of) the batch and batch and gallery hold real numbers. -/
theorem simTile_apply (c : Dev nD) (hX : ∀ p, ∃ r : ℝ, batch m c p = (r : EReal)) (hG : ∀ p, ∃ r : ℝ, gallery m c p = (r : EReal))
    (t : Fin cfg0.N) (a : Vec Ideal S1024x512 .f32) (ha : ∀ p, a p = batch m c p) (i l : Fin 1024) :
    k0_pay8 (F := Ideal) (galBlk m c t) (k0_pay5 a) (k0_pay6 a) (ix2 i l) = sim (batch m c) (gallery m c) i (col t.val (lt32 t) l) := by
  have hg : ∀ p, ∃ r : ℝ, galBlk m c t p = (r : EReal) := fun p => by
    obtain ⟨l', k, rfl⟩ : ∃ (l' : Fin 1024) (k : Fin 512), p = ix2 l' k := ⟨p 0, p 1, eq_ix2 p⟩
    rw [galBlk_apply]; exact hG _
  have ha' : ∀ p, ∃ r : ℝ, a p = (r : EReal) := fun p => by rw [ha]; exact hX _
  refine (Tile.sim_apply (galBlk m c t) a hg ha' i l).trans ?_
  unfold sim
  refine Finset.sum_congr rfl fun k _ => ?_
  rw [ha, galBlk_apply]

/-- The positive mask of point `t` at (row `i`, lane `l`) says: gallery row `t * 1024 + l` has row `i`'s label and is not its own slot. -/
theorem maskTile_iff (c : Dev nD) (t : Fin cfg0.N) (i l : Fin 1024) :
    k0_pay10 (F := Ideal) (grid0.coords t) (tgBlk m c t) (flBlk m c t) k0_pay7 (ownBlk m c t) (ix2 i l) = 1#1
      ↔ sameLabel (targets m c) (labels m c) i (col t.val (lt32 t) l) ∧ ¬ownSlot (ownSlots m c) i (col t.val (lt32 t) l) := by
  rw [Tile.mask_apply, tgBlk_apply, flBlk_apply, ownBlk_apply, (index_facts t).2.2.2.2.2.2.2.2.2.2.2.2.2.2]
  exact Iff.rfl

/-- The label comparison of point `t` at (row `i`, lane `l`). -/
theorem rawTile_iff (c : Dev nD) (t : Fin cfg0.N) (i l : Fin 1024) :
    k0_pay9 (F := Ideal) (tgBlk m c t) (flBlk m c t) (ix2 i l) = 1#1 ↔ sameLabel (targets m c) (labels m c) i (col t.val (lt32 t) l) := by
  rw [Tile.raw_apply, tgBlk_apply, flBlk_apply]
  exact Iff.rfl

/-- Folding point `t`'s tile into a running minimum `prev`. -/
theorem tile_min (c : Dev nD) (hX : ∀ p, ∃ r : ℝ, batch m c p = (r : EReal)) (hG : ∀ p, ∃ r : ℝ, gallery m c p = (r : EReal))
    (t : Fin cfg0.N) (a : Vec Ideal S1024x512 .f32) (ha : ∀ p, a p = batch m c p)
    (hi lo : Vec Ideal S1024x512 .bf16) (lanes : Vec Ideal S1x1024 .i32) (hhi : hi = k0_pay5 a) (hlo : lo = k0_pay6 a) (hlanes : lanes = k0_pay7)
    (prev : Vec Ideal S1024x1 .f32) (i : Fin 1024) :
    k0_pay1 (F := Ideal) (k0_pay8 (galBlk m c t) hi lo) (k0_pay10 (grid0.coords t) (tgBlk m c t) (flBlk m c t) lanes (ownBlk m c t)) prev (ix2 i (0 : Fin 1))
      = min (prev (ix2 i 0)) (tileMin (posφ m c i) t.val (lt32 t)) := by
  subst hhi hlo hlanes
  rw [Tile.runMin_apply]
  refine congrArg (min (prev (ix2 i (0 : Fin 1)))) ?_
  unfold tileMin
  refine Finset.fold_congr fun l _ => ?_
  rw [simTile_apply m c hX hG t a ha i l]
  show _ = posTerm (batch m c) (gallery m c) (targets m c) (ownSlots m c) (labels m c) i (col t.val (lt32 t) l)
  unfold posTerm
  exact if_congr (maskTile_iff m c t i l) rfl rfl

/-- Folding point `t`'s tile into a running maximum `prev`. -/
theorem tile_max (c : Dev nD) (hX : ∀ p, ∃ r : ℝ, batch m c p = (r : EReal)) (hG : ∀ p, ∃ r : ℝ, gallery m c p = (r : EReal))
    (t : Fin cfg0.N) (a : Vec Ideal S1024x512 .f32) (ha : ∀ p, a p = batch m c p)
    (hi lo : Vec Ideal S1024x512 .bf16) (hhi : hi = k0_pay5 a) (hlo : lo = k0_pay6 a)
    (prev : Vec Ideal S1024x1 .f32) (i : Fin 1024) :
    k0_pay2 (F := Ideal) (k0_pay8 (galBlk m c t) hi lo) (k0_pay9 (tgBlk m c t) (flBlk m c t)) prev (ix2 i (0 : Fin 1))
      = max (prev (ix2 i 0)) (tileMax (negφ m c i) t.val (lt32 t)) := by
  subst hhi hlo
  rw [Tile.runMax_apply]
  refine congrArg (max (prev (ix2 i (0 : Fin 1)))) ?_
  unfold tileMax
  refine Finset.fold_congr fun l _ => ?_
  rw [simTile_apply m c hX hG t a ha i l]
  show _ = negTerm (batch m c) (gallery m c) (targets m c) (labels m c) i (col t.val (lt32 t) l)
  unfold negTerm
  exact if_congr (rawTile_iff m c t i l) rfl rfl

/-! ## The carried buffers, point by point -/

/-- The batch as a vector of the block's type; the batch's block is it at every point. -/
abbrev batchV (c : Dev nD) : Vec Ideal S1024x512 .f32 := batch m c

theorem batchBlk_eq (c : Dev nD) (t : Fin cfg0.N) : batchBlk m c t = batchV m c := funext fun p => by
  obtain ⟨i, k, rfl⟩ : ∃ (i : Fin 1024) (k : Fin 512), p = ix2 i k := ⟨p 0, p 1, eq_ix2 p⟩
  exact batchBlk_apply m c t i k

/-- What the five carried buffers hold after point `n`: the running minimum and maximum of the point's half so far, row
    by row; the batch's high and low parts; the lane numbers. -/
def Carried (c : Dev nD) (n : ℕ) (hn : n < cfg0.N) : Prop :=
  (∀ i : Fin 1024, (outsAt0 m c n hn).2.2.1 (ix2 i (0 : Fin 1)) = accMin (posφ m c i) n (lt_of_lt_of_eq hn N_0))
  ∧ (∀ i : Fin 1024, (outsAt0 m c n hn).2.2.2.1 (ix2 i (0 : Fin 1)) = accMax (negφ m c i) n (lt_of_lt_of_eq hn N_0))
  ∧ (outsAt0 m c n hn).2.2.2.2.1 = k0_pay5 (batchV m c)
  ∧ (outsAt0 m c n hn).2.2.2.2.2.1 = k0_pay6 (batchV m c)
  ∧ (outsAt0 m c n hn).2.2.2.2.2.2 = k0_pay7

/-- One point, given the points before it. -/
theorem carried_step (c : Dev nD) (hX : ∀ p, ∃ r : ℝ, batch m c p = (r : EReal)) (hG : ∀ p, ∃ r : ℝ, gallery m c p = (r : EReal))
    (t : Fin cfg0.N) (ih : ∀ (k : ℕ) (hk : k < cfg0.N), k < t.val → Carried m c k hk) : Carried m c t.val t.isLt := by
  have h32 := lt32 t
  unfold Carried
  by_cases h0 : t.val % 16 = 0
  · -- the first point of a half: everything is reset and the tile folded in
    have h1 : ¬t.val % 16 = 15 := by omega
    rw [outsAt0_A m c t h0 h1]
    dsimp only
    refine ⟨fun i => ?_, fun i => ?_, ?_, ?_, ?_⟩
    · refine (congrFun (Found.first_runMin (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t)) (ix2 i (0 : Fin 1))).trans ?_
      refine (tile_min m c hX hG t (iblk m c 0 t) (fun p => congrFun (batchBlk_eq m c t) p) _ _ _ rfl rfl rfl _ i).trans ?_
      rw [Tile.resetMin_apply, accMin_first _ _ _ h0]
    · refine (congrFun (Found.first_runMax (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t)) (ix2 i (0 : Fin 1))).trans ?_
      refine (tile_max m c hX hG t (iblk m c 0 t) (fun p => congrFun (batchBlk_eq m c t) p) _ _ rfl rfl _ i).trans ?_
      rw [Tile.resetMax_apply, accMax_first _ _ _ h0]
    · exact (Found.first_hi (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t)).trans (congrArg (k0_pay5 (F := Ideal)) (batchBlk_eq m c t))
    · exact (Found.first_lo (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t)).trans (congrArg (k0_pay6 (F := Ideal)) (batchBlk_eq m c t))
    · exact Found.first_lanes (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t)
  · have hpos : 0 < t.val := by omega
    have ihP := ih (t.val - 1) (Nat.lt_of_le_of_lt (Nat.sub_le _ _) t.isLt) (by omega)
    obtain ⟨pMin, pMax, pHi, pLo, pLanes⟩ := ihP
    by_cases h1 : t.val % 16 = 15
    · -- the last point of a half
      rw [outsAt0_C m c t h0 h1]
      dsimp only
      refine ⟨fun i => ?_, fun i => ?_, ?_, ?_, ?_⟩
      · refine (congrFun (Found.last_runMin (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) (ix2 i (0 : Fin 1))).trans ?_
        refine (tile_min m c hX hG t (batchV m c) (fun _ => rfl) _ _ _ pHi pLo pLanes _ i).trans ?_
        rw [pMin i, accMin_next _ _ _ h0]
      · refine (congrFun (Found.last_runMax (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) (ix2 i (0 : Fin 1))).trans ?_
        refine (tile_max m c hX hG t (batchV m c) (fun _ => rfl) _ _ pHi pLo _ i).trans ?_
        rw [pMax i, accMax_next _ _ _ h0]
      · exact pHi
      · exact pLo
      · exact pLanes
    · -- a middle point
      rw [outsAt0_B m c t h0 h1]
      dsimp only
      refine ⟨fun i => ?_, fun i => ?_, ?_, ?_, ?_⟩
      · refine (congrFun (Found.middle_runMin (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) (ix2 i (0 : Fin 1))).trans ?_
        refine (tile_min m c hX hG t (batchV m c) (fun _ => rfl) _ _ _ pHi pLo pLanes _ i).trans ?_
        rw [pMin i, accMin_next _ _ _ h0]
      · refine (congrFun (Found.middle_runMax (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) (ix2 i (0 : Fin 1))).trans ?_
        refine (tile_max m c hX hG t (batchV m c) (fun _ => rfl) _ _ pHi pLo _ i).trans ?_
        rw [pMax i, accMax_next _ _ _ h0]
      · exact pHi
      · exact pLo
      · exact pLanes

/-- Every point: by induction on the point's number. -/
theorem carried (c : Dev nD) (hX : ∀ p, ∃ r : ℝ, batch m c p = (r : EReal)) (hG : ∀ p, ∃ r : ℝ, gallery m c p = (r : EReal)) :
    ∀ (n : ℕ) (hn : n < cfg0.N), Carried m c n hn := fun n =>
  Nat.strong_induction_on n fun n ih hn => carried_step m c hX hG ⟨n, hn⟩ fun k hk hlt => ih k hlt hk

/-- At the last point of a half the first output's block is the half's final running minimum, -/
theorem outMin_last (c : Dev nD) (hX : ∀ p, ∃ r : ℝ, batch m c p = (r : EReal)) (hG : ∀ p, ∃ r : ℝ, gallery m c p = (r : EReal))
    (t : Fin cfg0.N) (h1 : t.val % 16 = 15) (i : Fin 1024) :
    (outsAt0 m c t.val t.isLt).1 (ix2 i (0 : Fin 1)) = accMin (posφ m c i) t.val (lt32 t) := by
  have h0 : ¬t.val % 16 = 0 := by omega
  obtain ⟨pMin, -, pHi, pLo, pLanes⟩ := carried m c hX hG (t.val - 1) (Nat.lt_of_le_of_lt (Nat.sub_le _ _) t.isLt)
  rw [outsAt0_C m c t h0 h1]
  dsimp only
  refine (congrFun (Found.last_outMin (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) (ix2 i (0 : Fin 1))).trans ?_
  refine (tile_min m c hX hG t (batchV m c) (fun _ => rfl) _ _ _ pHi pLo pLanes _ i).trans ?_
  rw [pMin i, accMin_next _ _ _ h0]

/-- and the second output's block its final running maximum. -/
theorem outMax_last (c : Dev nD) (hX : ∀ p, ∃ r : ℝ, batch m c p = (r : EReal)) (hG : ∀ p, ∃ r : ℝ, gallery m c p = (r : EReal))
    (t : Fin cfg0.N) (h1 : t.val % 16 = 15) (i : Fin 1024) :
    (outsAt0 m c t.val t.isLt).2.1 (ix2 i (0 : Fin 1)) = accMax (negφ m c i) t.val (lt32 t) := by
  have h0 : ¬t.val % 16 = 0 := by omega
  obtain ⟨-, pMax, pHi, pLo, -⟩ := carried m c hX hG (t.val - 1) (Nat.lt_of_le_of_lt (Nat.sub_le _ _) t.isLt)
  rw [outsAt0_C m c t h0 h1]
  dsimp only
  refine (congrFun (Found.last_outMax (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) (ix2 i (0 : Fin 1))).trans ?_
  refine (tile_max m c hX hG t (batchV m c) (fun _ => rfl) _ _ pHi pLo _ i).trans ?_
  rw [pMax i, accMax_next _ _ _ h0]

end Cert.KernelIdeal.Carry

end
-- ==== Proof.Tail.lean ====
/-
  The host lines after the region.

  The region leaves two arrays of 2048 rows: the first 1024 rows are the first gallery half's per-row result, the last
  1024 the second half's.  The lines after it view each as 2 × 1024, reduce over the two halves (minimum from `+∞` for
  the positives, maximum from `−∞` for the negatives), and then form the loss: the hinge of `neg − pos + margin` at zero,
  summed over the 1024 rows and divided by 1024.  `lossOf` is that last stretch as one function of the two per-row
  vectors; the program's result is `lossOf` of the two reductions of what the region left.
-/
import proofs.«411021_j2937757630817_3_alg».proof.Proof.Gen.KernelIdeal.Frame
import Idealize.ShloMosaic.Lib.Pipeline.Value
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.Tail

open Cert.KernelIdeal Cert.KernelIdeal.Gen

variable {F : FTy → Type} [FloatOps F]

/-- The loss from the per-row minimum over the positives and maximum over the negatives. -/
def lossOf (pos neg : FVec F S1024 .f32) : FVec F S_ .f32 :=
  Host.divf
    (Host.reduceAdd
      (maximumf (addf (subf neg pos) (broadcastInDim S1024 ![] bcast_S_S1024 (constant (F := F) S_ .f32 0x3E99999A#32)))
        (broadcastInDim S1024 ![] bcast_S_S1024 (constant (F := F) S_ .f32 0x00000000#32)))
      (constant (F := F) S_ .f32 0x00000000#32) reducesTo_S1024_S_d0 h_S_)
    (constant (F := F) S_ .f32 0x44800000#32)

/-- The minimum over the two halves of an array of 2048 rows viewed as 2 × 1024. -/
def halvesMin (a : FVec F S2048x1 .f32) : FVec F S1024 .f32 :=
  Host.reduce FloatOps.minimumf (shapeCast S2x1024 a shapeCasts_S2048x1_S2x1024) (constant (F := F) S_ .f32 0x7F800000#32)
    reducesTo_S2x1024_S1024_d0 h_S_

/-- The maximum over the two halves of an array of 2048 rows viewed as 2 × 1024. -/
def halvesMax (a : FVec F S2048x1 .f32) : FVec F S1024 .f32 :=
  Host.reduce FloatOps.maximumf (shapeCast S2x1024 a shapeCasts_S2048x1_S2x1024) (constant (F := F) S_ .f32 0xFF800000#32)
    reducesTo_S2x1024_S1024_d0 h_S_

variable (m : (ℓ : Loc nD τ sig) → Buf (Elt F) ℓ)

/-- The program's result after the lines that follow the region: the loss of the two reductions of the arrays the
    region left. -/
theorem result_eq (c : Dev nD) :
    Pipeline.afterTail₀ cfgs (dats m) 0 (V0 m) [hostOps1] c main_v14
      = lossOf (halvesMin ((dats m 0 c).arrAt 5 cfg0.N)) (halvesMax ((dats m 0 c).arrAt 6 cfg0.N)) := by
  unfold Pipeline.afterTail₀
  show StableHlo.after hostOps1 _ (Proc.devRef .tc main_v14) = _
  after_results
  have e5 : Pipeline.withArrays (cfgs 0).spec c (V0 m c) (fun w => (dats m 0 c).arrAt w (cfgs 0).N) (Proc.devRef .tc main_v3_0)
      = (dats m 0 c).arrAt 5 cfg0.N :=
    Pipeline.withArrays_arr spec0 launch0.win.arr_inj c _ _ 5
  have e6 : Pipeline.withArrays (cfgs 0).spec c (V0 m c) (fun w => (dats m 0 c).arrAt w (cfgs 0).N) (Proc.devRef .tc main_v3_1)
      = (dats m 0 c).arrAt 6 cfg0.N :=
    Pipeline.withArrays_arr spec0 launch0.win.arr_inj c _ _ 6
  rw [e5, e6]
  rfl

end Cert.KernelIdeal.Tail

end
-- ==== Proof.Final.lean ====
/-
  The two result arrays after the run, and the program's result.

  Each output array has 2048 rows: rows `g * 1024 + i` belong to gallery half `g`.  A half's block is written back once,
  after the half's last point, and holds the half's final running value row by row; the two blocks tile the array.  So
  row `g * 1024 + i` of the first array ends at row `i`'s minimum over the positives of half `g`, and of the second at
  its maximum over the negatives.  The lines after the region reduce over the two halves, which by the specification's
  order lemma is the minimum (maximum) over the whole gallery; the program's result is the loss of those.
-/
import proofs.«411021_j2937757630817_3_alg».proof.Proof.Carry
import proofs.«411021_j2937757630817_3_alg».proof.Proof.Tail
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.Mining Cert.KernelIdeal.Carry

variable (m : (ℓ : Loc nD τ sig) → Buf (Elt Ideal) ℓ)

/-! ## What a row of a result array holds -/

theorem accMin_congr (φ : Fin 32768 → EReal) {n n' : ℕ} (e : n = n') (h : n < 32) (h' : n' < 32) : accMin φ n h = accMin φ n' h' := by
  subst e; rfl

theorem accMax_congr (φ : Fin 32768 → EReal) {n n' : ℕ} (e : n = n') (h : n < 32) (h' : n' < 32) : accMax φ n h = accMax φ n' h' := by
  subst e; rfl

/-- Row `r` of the first result array: batch row `r % 1024`'s final running minimum over half `r / 1024`. -/
def halfRowMin (c : Dev nD) (r : ℕ) (hr : r < 2048) : EReal :=
  accMin (posφ m c ⟨r % 1024, Nat.mod_lt _ (by decide)⟩) (r / 1024 * 16 + 15) (by omega)

/-- Row `r` of the second result array: batch row `r % 1024`'s final running maximum over half `r / 1024`. -/
def halfRowMax (c : Dev nD) (r : ℕ) (hr : r < 2048) : EReal :=
  accMax (negφ m c ⟨r % 1024, Nat.mod_lt _ (by decide)⟩) (r / 1024 * 16 + 15) (by omega)

theorem halfRowMin_eq (c : Dev nD) (g : ℕ) (i : Fin 1024) (n : ℕ) (hn : n < 32) (r : ℕ) (hr : r < 2048)
    (er : r = g * 1024 + i.val) (en : n = g * 16 + 15) : halfRowMin m c r hr = accMin (posφ m c i) n hn := by
  unfold halfRowMin
  have hi := i.isLt
  have e1 : (⟨r % 1024, Nat.mod_lt _ (by decide)⟩ : Fin 1024) = i := Fin.ext (by show r % 1024 = i.val; omega)
  rw [e1]
  exact accMin_congr _ (by omega) _ _

theorem halfRowMax_eq (c : Dev nD) (g : ℕ) (i : Fin 1024) (n : ℕ) (hn : n < 32) (r : ℕ) (hr : r < 2048)
    (er : r = g * 1024 + i.val) (en : n = g * 16 + 15) : halfRowMax m c r hr = accMax (negφ m c i) n hn := by
  unfold halfRowMax
  have hi := i.isLt
  have e1 : (⟨r % 1024, Nat.mod_lt _ (by decide)⟩ : Fin 1024) = i := Fin.ext (by show r % 1024 = i.val; omega)
  rw [e1]
  exact accMax_congr _ (by omega) _ _

/-- The first result array as one function of the arguments, -/
abbrev minArr (c : Dev nD) : (⟨2, ![2048, 1]⟩ : Shape).Idx → EReal := fun p => halfRowMin m c (p 0).val (p 0).isLt
/-- and the second. -/
abbrev maxArr (c : Dev nD) : (⟨2, ![2048, 1]⟩ : Shape).Idx → EReal := fun p => halfRowMax m c (p 0).val (p 0).isLt

/-! ## The write-backs -/

/-- The one write-back of a half, at the half's last point, writes that half's block of `minArr`. -/
theorem flushedMin_eq (c : Dev nD) (hX : ∀ p, ∃ r : ℝ, batch m c p = (r : EReal)) (hG : ∀ p, ∃ r : ℝ, gallery m c p = (r : EReal))
    (t : Fin cfg0.N) (hf : (cfg0.win 5).flush t = true) :
    (dats m 0 c).flushed 5 t = ((cfg0.win 5).blk t).view.read (Elt Ideal) (minArr m c) := by
  have h15 := (flush0_5 t).mp hf
  have h32 := lt32 t
  show (cfg0.win 5).cut (grid0.coords t) ((dats m 0 c).after 5 t) = _
  rw [after0_5]
  funext y
  obtain ⟨i, z, rfl⟩ : ∃ (i : Fin 1024) (z : Fin 1), y = ix2 i z := ⟨y 0, y 1, eq_ix2 y⟩
  obtain rfl : z = 0 := Subsingleton.elim _ _
  show (outsAt0 m c t.val t.isLt).1 (ix2 i (0 : Fin 1)) = minArr m c (((cfg0.win 5).blk t).view.emb (ix2 i (0 : Fin 1)))
  rw [outMin_last m c hX hG t h15 i]
  obtain ⟨-, -, -, -, -, -, -, -, -, -, e0, -⟩ := index_facts t
  refine (halfRowMin_eq m c (t.val / 16) i t.val h32 _ _ ?_ (by omega)).symm
  show win0_5.index t 0 * 1024 + 1 * i.val = t.val / 16 * 1024 + i.val
  rw [e0]; omega

theorem flushedMax_eq (c : Dev nD) (hX : ∀ p, ∃ r : ℝ, batch m c p = (r : EReal)) (hG : ∀ p, ∃ r : ℝ, gallery m c p = (r : EReal))
    (t : Fin cfg0.N) (hf : (cfg0.win 6).flush t = true) :
    (dats m 0 c).flushed 6 t = ((cfg0.win 6).blk t).view.read (Elt Ideal) (maxArr m c) := by
  have h15 := (flush0_6 t).mp hf
  have h32 := lt32 t
  show (cfg0.win 6).cut (grid0.coords t) ((dats m 0 c).after 6 t) = _
  rw [after0_6]
  funext y
  obtain ⟨i, z, rfl⟩ : ∃ (i : Fin 1024) (z : Fin 1), y = ix2 i z := ⟨y 0, y 1, eq_ix2 y⟩
  obtain rfl : z = 0 := Subsingleton.elim _ _
  show (outsAt0 m c t.val t.isLt).2.1 (ix2 i (0 : Fin 1)) = maxArr m c (((cfg0.win 6).blk t).view.emb (ix2 i (0 : Fin 1)))
  rw [outMax_last m c hX hG t h15 i]
  obtain ⟨-, -, -, -, -, -, -, -, -, -, -, -, e0, -⟩ := index_facts t
  refine (halfRowMax_eq m c (t.val / 16) i t.val h32 _ _ ?_ (by omega)).symm
  show win0_6.index t 0 * 1024 + 1 * i.val = t.val / 16 * 1024 + i.val
  rw [e0]; omega

/-- A row of the array lies in point `t`'s block when it is in the block's range of 1024 rows. -/
theorem mem_blkMin (t : Fin cfg0.N) (p : S2048x1.Idx) :
    p ∈ ((cfg0.win 5).blk t).view.set ↔ ∀ a : Fin 2, win0_5.index t a * S1024x1.size a ≤ (p a).val ∧ (p a).val < win0_5.index t a * S1024x1.size a + S1024x1.size a := by
  show p ∈ ((View.whole main_v3_0).slice (win0_5.rect t)).set ↔ _
  rw [View.set_slice_whole, Rect.mem_set_unit]
  exact Iff.rfl

theorem mem_blkMax (t : Fin cfg0.N) (p : S2048x1.Idx) :
    p ∈ ((cfg0.win 6).blk t).view.set ↔ ∀ a : Fin 2, win0_6.index t a * S1024x1.size a ≤ (p a).val ∧ (p a).val < win0_6.index t a * S1024x1.size a + S1024x1.size a := by
  show p ∈ ((View.whole main_v3_1).slice (win0_6.rect t)).set ↔ _
  rw [View.set_slice_whole, Rect.mem_set_unit]
  exact Iff.rfl

/-- The last point of row `r`'s half. -/
def lastPoint (p : S2048x1.Idx) : Fin cfg0.N :=
  ⟨(p 0).val / 1024 * 16 + 15, by
    have h : (p 0).val < 2048 := (p 0).isLt
    rw [show cfg0.N = 32 from N_0]; omega⟩

/-- Every row is in the block its half's last point writes back. -/
theorem coverMin (p : S2048x1.Idx) : ∃ t : Fin cfg0.N, (cfg0.win 5).flush t = true ∧ p ∈ ((cfg0.win 5).blk t).view.set := by
  have h0 : (p 0).val < 2048 := (p 0).isLt
  have h1 : (p 1).val < 1 := (p 1).isLt
  refine ⟨lastPoint p, (flush0_5 _).mpr (by show ((p 0).val / 1024 * 16 + 15) % 16 = 15; omega), ?_⟩
  rw [mem_blkMin]
  obtain ⟨-, -, -, -, -, -, -, -, -, -, e0, e1, -⟩ := index_facts (lastPoint p)
  have ev : (lastPoint p).val = (p 0).val / 1024 * 16 + 15 := rfl
  intro a
  match a with
  | ⟨0, _⟩ =>
    show win0_5.index (lastPoint p) 0 * 1024 ≤ (p 0).val ∧ (p 0).val < win0_5.index (lastPoint p) 0 * 1024 + 1024
    rw [e0, ev]; omega
  | ⟨1, _⟩ =>
    show win0_5.index (lastPoint p) 1 * 1 ≤ (p 1).val ∧ (p 1).val < win0_5.index (lastPoint p) 1 * 1 + 1
    rw [e1]; omega

theorem coverMax (p : S2048x1.Idx) : ∃ t : Fin cfg0.N, (cfg0.win 6).flush t = true ∧ p ∈ ((cfg0.win 6).blk t).view.set := by
  have h0 : (p 0).val < 2048 := (p 0).isLt
  have h1 : (p 1).val < 1 := (p 1).isLt
  refine ⟨lastPoint p, (flush0_6 _).mpr (by show ((p 0).val / 1024 * 16 + 15) % 16 = 15; omega), ?_⟩
  rw [mem_blkMax]
  obtain ⟨-, -, -, -, -, -, -, -, -, -, -, -, e0, e1, -⟩ := index_facts (lastPoint p)
  have ev : (lastPoint p).val = (p 0).val / 1024 * 16 + 15 := rfl
  intro a
  match a with
  | ⟨0, _⟩ =>
    show win0_6.index (lastPoint p) 0 * 1024 ≤ (p 0).val ∧ (p 0).val < win0_6.index (lastPoint p) 0 * 1024 + 1024
    rw [e0, ev]; omega
  | ⟨1, _⟩ =>
    show win0_6.index (lastPoint p) 1 * 1 ≤ (p 1).val ∧ (p 1).val < win0_6.index (lastPoint p) 1 * 1 + 1
    rw [e1]; omega

/-- The first result array after the run, -/
theorem finalMin (c : Dev nD) (hX : ∀ p, ∃ r : ℝ, batch m c p = (r : EReal)) (hG : ∀ p, ∃ r : ℝ, gallery m c p = (r : EReal)) :
    (dats m 0 c).arrAt 5 cfg0.N = minArr m c :=
  (dats m 0 c).arrAt_eq_of_cover 5 (minArr m c) (fun t hf => flushedMin_eq m c hX hG t hf) coverMin

/-- and the second. -/
theorem finalMax (c : Dev nD) (hX : ∀ p, ∃ r : ℝ, batch m c p = (r : EReal)) (hG : ∀ p, ∃ r : ℝ, gallery m c p = (r : EReal)) :
    (dats m 0 c).arrAt 6 cfg0.N = maxArr m c :=
  (dats m 0 c).arrAt_eq_of_cover 6 (maxArr m c) (fun t hf => flushedMax_eq m c hX hG t hf) coverMax

/-! ## Over the two halves -/

theorem lift_half (h : S2x1024.Reduces [0] S1024) (i : Fin 1024) (g : Fin 2) : h.lift (ix1 i) g = ix2 g i := by
  funext a
  match a with
  | ⟨0, _⟩ => exact Fin.ext rfl
  | ⟨1, _⟩ => exact Fin.ext rfl

/-- Row `i`'s minimum over the two halves is its minimum over the gallery. -/
theorem halvesMin_final (c : Dev nD) (hX : ∀ p, ∃ r : ℝ, batch m c p = (r : EReal)) (hG : ∀ p, ∃ r : ℝ, gallery m c p = (r : EReal))
    (i : Fin 1024) :
    Tail.halvesMin (F := Ideal) ((dats m 0 c).arrAt 5 cfg0.N) (ix1 i) = (Finset.univ : Finset (Fin 32768)).fold min ⊤ (posφ m c i) := by
  rw [finalMin m c hX hG, ← fold_halves_accMin (posφ m c i)]
  unfold Tail.halvesMin
  have h : S2x1024.Reduces [0] S1024 := by decide
  rw [Host.reduce_eq_fold_single FloatOps.minimumf _ _ reducesTo_S2x1024_S1024_d0 h h_S_ (ix1 i)]
  have hinit : constant (F := Ideal) S_ .f32 0x7F800000#32 (Shape.Idx.first h_S_) = (⊤ : EReal) := by
    show Ideal.ofBits .f32 0x7F800000#32 = ⊤
    simp [Ideal.ofBits, Ideal.ieee]
  rw [hinit]
  show (Finset.univ : Finset (Fin 2)).fold min ⊤ (fun g : Fin 2 => shapeCast S2x1024 (minArr m c) shapeCasts_S2048x1_S2x1024 (h.lift (ix1 i) g)) = _
  refine Finset.fold_congr fun g _ => ?_
  have hg := g.isLt
  have hi := i.isLt
  rw [lift_half h i g, shapeCast_apply (minArr m c) shapeCasts_S2048x1_S2x1024 (ix2 g i) (ix2 (⟨g.val * 1024 + i.val, by omega⟩ : Fin 2048) (0 : Fin 1)) (by
    rw [Shape.rowMajor_val_two, Shape.rowMajor_val_two]
    show (g.val * 1024 + i.val) * 1 + 0 = g.val * 1024 + i.val; omega)]
  exact halfRowMin_eq m c g.val i _ _ _ _ rfl rfl

/-- Row `i`'s maximum over the two halves is its maximum over the gallery. -/
theorem halvesMax_final (c : Dev nD) (hX : ∀ p, ∃ r : ℝ, batch m c p = (r : EReal)) (hG : ∀ p, ∃ r : ℝ, gallery m c p = (r : EReal))
    (i : Fin 1024) :
    Tail.halvesMax (F := Ideal) ((dats m 0 c).arrAt 6 cfg0.N) (ix1 i) = (Finset.univ : Finset (Fin 32768)).fold max ⊥ (negφ m c i) := by
  rw [finalMax m c hX hG, ← fold_halves_accMax (negφ m c i)]
  unfold Tail.halvesMax
  have h : S2x1024.Reduces [0] S1024 := by decide
  rw [Host.reduce_eq_fold_single FloatOps.maximumf _ _ reducesTo_S2x1024_S1024_d0 h h_S_ (ix1 i)]
  have hinit : constant (F := Ideal) S_ .f32 0xFF800000#32 (Shape.Idx.first h_S_) = (⊥ : EReal) := by
    show Ideal.ofBits .f32 0xFF800000#32 = ⊥
    simp [Ideal.ofBits, Ideal.ieee]
  rw [hinit]
  show (Finset.univ : Finset (Fin 2)).fold max ⊥ (fun g : Fin 2 => shapeCast S2x1024 (maxArr m c) shapeCasts_S2048x1_S2x1024 (h.lift (ix1 i) g)) = _
  refine Finset.fold_congr fun g _ => ?_
  have hg := g.isLt
  have hi := i.isLt
  rw [lift_half h i g, shapeCast_apply (maxArr m c) shapeCasts_S2048x1_S2x1024 (ix2 g i) (ix2 (⟨g.val * 1024 + i.val, by omega⟩ : Fin 2048) (0 : Fin 1)) (by
    rw [Shape.rowMajor_val_two, Shape.rowMajor_val_two]
    show (g.val * 1024 + i.val) * 1 + 0 = g.val * 1024 + i.val; omega)]
  exact halfRowMax_eq m c g.val i _ _ _ _ rfl rfl

/-! ## The program's result -/

/-- Row by row, the minimum over the positives and the maximum over the negatives of the whole gallery. -/
abbrev posVec (c : Dev nD) : FVec Ideal S1024 .f32 := fun j => (Finset.univ : Finset (Fin 32768)).fold min ⊤ (posφ m c (j 0))
abbrev negVec (c : Dev nD) : FVec Ideal S1024 .f32 := fun j => (Finset.univ : Finset (Fin 32768)).fold max ⊥ (negφ m c (j 0))

/-- The kernel program's result, for real batch and gallery entries: the loss of the gallery-wide row reductions. -/
theorem result_value (c : Dev nD) (hX : ∀ p, ∃ r : ℝ, batch m c p = (r : EReal)) (hG : ∀ p, ∃ r : ℝ, gallery m c p = (r : EReal)) :
    Pipeline.afterTail₀ cfgs (dats m) 0 (V0 m) [hostOps1] c main_v14 = Tail.lossOf (F := Ideal) (posVec m c) (negVec m c) := by
  rw [Tail.result_eq]
  have e5 : Tail.halvesMin (F := Ideal) ((dats m 0 c).arrAt 5 cfg0.N) = posVec m c := funext fun j => by
    obtain ⟨i, rfl⟩ : ∃ i : Fin 1024, j = ix1 i := ⟨j 0, eq_ix1 j⟩
    exact halvesMin_final m c hX hG i
  have e6 : Tail.halvesMax (F := Ideal) ((dats m 0 c).arrAt 6 cfg0.N) = negVec m c := funext fun j => by
    obtain ⟨i, rfl⟩ : ∃ i : Fin 1024, j = ix1 i := ⟨j 0, eq_ix1 j⟩
    exact halvesMax_final m c hX hG i
  rw [e5, e6]

end Cert.KernelIdeal.Final

end
-- ==== Proof.lean ====
/-
  The kernel and its reference compute the same loss.

  The kernel streams the gallery through 32 tiles in two halves, keeping per batch row a running minimum of the
  similarities to the positives (same label, not the row's own slot) and a running maximum of those to the negatives;
  the lines after it reduce over the two halves and form the hinge loss.  The reference builds the whole similarity
  matrix, clears each row's own slot from the positive mask with a scatter, and reduces each row once.  Over the extended
  reals the two agree: a tile's similarity is the inner product (the split into a high and a low part adds zeros, for
  real entries), the kernel's "lane number is not the own-slot word" is the scatter's cleared entry when that word is
  not negative, and a minimum (maximum) taken tile by tile and half by half is the minimum (maximum) over the row.
  Hence the precondition: real entries, and own-slot words that are not negative.
  The three frames are the generated ones (the reference's from its run), and the idealization only removed two
  round trips through the narrower float format, which are the identity over the extended reals.
-/
import proofs.«411021_j2937757630817_3_alg».proof.Defs
import proofs.«411021_j2937757630817_3_alg».proof.Proof.Gen.Kernel
import proofs.«411021_j2937757630817_3_alg».proof.Proof.Gen.Kernel.Skeleton
import proofs.«411021_j2937757630817_3_alg».proof.Proof.Gen.Kernel.Launch
import proofs.«411021_j2937757630817_3_alg».proof.Proof.Gen.Kernel.Points
import proofs.«411021_j2937757630817_3_alg».proof.Proof.Gen.Kernel.Frame
import proofs.«411021_j2937757630817_3_alg».proof.Proof.Gen.KernelIdeal
import proofs.«411021_j2937757630817_3_alg».proof.Proof.Gen.KernelIdeal.Skeleton
import proofs.«411021_j2937757630817_3_alg».proof.Proof.Gen.KernelIdeal.Launch
import proofs.«411021_j2937757630817_3_alg».proof.Proof.Gen.KernelIdeal.Points
import proofs.«411021_j2937757630817_3_alg».proof.Proof.Gen.KernelIdeal.Frame
import proofs.«411021_j2937757630817_3_alg».proof.Proof.Gen.ReferenceIdeal
import proofs.«411021_j2937757630817_3_alg».proof.Proof.Gen.Pre_finite_inputs
import proofs.«411021_j2937757630817_3_alg».proof.Proof.RefRun
import proofs.«411021_j2937757630817_3_alg».proof.Proof.RefRead
import proofs.«411021_j2937757630817_3_alg».proof.Proof.RefValue
import proofs.«411021_j2937757630817_3_alg».proof.Proof.PreFacts
import proofs.«411021_j2937757630817_3_alg».proof.Proof.Final
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx Cert.Mining

/-- The loss as a function of the five argument arrays: per batch row the minimum over the positives and the maximum over
    the negatives of the whole gallery, then the hinge, the sum and the division. -/
abbrev lossOfArgs (X : (⟨2, ![1024, 512]⟩ : Shape).Idx → EReal) (G : (⟨2, ![32768, 512]⟩ : Shape).Idx → EReal)
    (tg own : (⟨1, ![1024]⟩ : Shape).Idx → BitVec 32) (fl : (⟨1, ![32768]⟩ : Shape).Idx → BitVec 32) :
    FVec Ideal Cert.KernelIdeal.S_ .f32 :=
  Cert.KernelIdeal.Tail.lossOf (F := Ideal)
    (fun j => (Finset.univ : Finset (Fin 32768)).fold min ⊤ (posTerm X G tg own fl (j 0)))
    (fun j => (Finset.univ : Finset (Fin 32768)).fold max ⊥ (negTerm X G tg fl (j 0)))

/-! ## The kernel's run -/

section KernelSide

open Cert.KernelIdeal Cert.KernelIdeal.Gen Cert.KernelIdeal.Carry Cert.KernelIdeal.Final

/-- Under the precondition every weakly fair execution of the idealized kernel ends with the result at the loss of its
    arguments and the arguments unchanged: the generated frame run, its post read at the result (through the lines after
    the region) and at the five arguments. -/
theorem kernel_run (m : (ℓ : Loc nD τ sig) → Buf (Elt Ideal) ℓ) (ρ : Dev nD → PrngReg) (hpre : Cert.Pre_KernelIdeal m) :
    θ_run (defs (F := Ideal)) (onTc (τ := τ) (main (F := Ideal))) ⟨m, fun _ => 0, ρ⟩ (fun r => ∀ c : Dev nD,
      r.2.mem ((c.tc : Thread nD τ).loc main_v14)
        = lossOfArgs (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (run_main m ρ)
  have hf := facts_of_pre _ _ _ _ _ (hpre c)
  have hX : ∀ p, ∃ r : ℝ, batch m c p = (r : EReal) := fun p => by
    show ∃ r : ℝ, V m c main_arg0 p = (r : EReal)
    rw [V_main_arg0]; exact hf.1 p
  have hG : ∀ p, ∃ r : ℝ, gallery m c p = (r : EReal) := fun p => by
    show ∃ r : ℝ, V m c main_arg1 p = (r : EReal)
    rw [V_main_arg1]; exact hf.2.1 p
  refine ⟨?_, ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    (((h c).2 main_arg2 (Pipeline.mem_restRefs_of main_arg2 (by decide) (by decide))).trans (W_main_arg2 m (dats m) c)),
    (((h c).2 main_arg3 (Pipeline.mem_restRefs_of main_arg3 (by decide) (by decide))).trans (W_main_arg3 m (dats m) c)),
    (((h c).2 main_arg4 (Pipeline.mem_restRefs_of main_arg4 (by decide) (by decide))).trans (W_main_arg4 m (dats m) c))⟩
  refine ((h c).2 main_v14 (Pipeline.mem_restRefs_of main_v14 (by decide) (by decide))).trans ?_
  rw [result_value m c hX hG]
  show Tail.lossOf (F := Ideal)
      (fun j => (Finset.univ : Finset (Fin 32768)).fold min ⊤ (posTerm (V m c main_arg0) (V m c main_arg1) (V m c main_arg2) (V m c main_arg3) (V m c main_arg4) (j 0)))
      (fun j => (Finset.univ : Finset (Fin 32768)).fold max ⊥ (negTerm (V m c main_arg0) (V m c main_arg1) (V m c main_arg2) (V m c main_arg4) (j 0))) = _
  rw [V_main_arg0, V_main_arg1, V_main_arg2, V_main_arg3, V_main_arg4]

end KernelSide

/-! ## The reference's run -/

section ReferenceSide

open Cert.ReferenceIdeal Cert.ReferenceIdeal.Gen Cert.ReferenceIdeal.ReadP

/-- When no own-slot word is negative, every weakly fair execution of the idealized reference ends with the result at the
    same loss of its arguments, and the arguments unchanged. -/
theorem reference_run (m : (ℓ : Loc nD τ sig) → Buf (Elt Ideal) ℓ) (ρ : Dev nD → PrngReg)
    (hown : ∀ (c : Dev nD) n, 0 ≤ ((m ((c.tc : Thread nD τ).loc main_arg3) : S1024.Idx → BitVec 32) n).toInt) :
    θ_run (defs (F := Ideal)) (onTc (τ := τ) (main (F := Ideal))) ⟨m, fun _ => 0, ρ⟩ (fun r => ∀ c : Dev nD,
      r.2.mem ((c.tc : Thread nD τ).loc main_v37)
        = lossOfArgs (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ⟨(h c).1.trans ?_, (h c).2⟩) (Cert.ReferenceIdeal.ValueP.run (F := Ideal) m ρ)
  rw [val_main_v37_eq]
  have hpos : val_main_v28 (F := Ideal) (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4))
      = fun j => (Finset.univ : Finset (Fin 32768)).fold min ⊤ (posTerm (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) (j 0)) := funext fun j => by
    obtain ⟨i, rfl⟩ : ∃ i : Fin 1024, j = ix1 i := ⟨j 0, eq_ix1 j⟩
    exact Cert.ReferenceIdeal.RefValue.pos_apply _ _ _ _ _ (hown c) i
  have hneg : val_main_v30 (F := Ideal) (m ((c.tc : Thread nD τ).loc main_arg0)) (m ((c.tc : Thread nD τ).loc main_arg1)) (m ((c.tc : Thread nD τ).loc main_arg2))
        (m ((c.tc : Thread nD τ).loc main_arg4))
      = fun j => (Finset.univ : Finset (Fin 32768)).fold max ⊥ (negTerm (m ((c.tc : Thread nD τ).loc main_arg0)) (m ((c.tc : Thread nD τ).loc main_arg1))
          (m ((c.tc : Thread nD τ).loc main_arg2)) (m ((c.tc : Thread nD τ).loc main_arg4)) (j 0)) := funext fun j => by
    obtain ⟨i, rfl⟩ : ∃ i : Fin 1024, j = ix1 i := ⟨j 0, eq_ix1 j⟩
    exact Cert.ReferenceIdeal.RefValue.neg_apply _ _ _ _ i
  show Cert.KernelIdeal.Tail.lossOf (F := Ideal)
      (val_main_v28 (F := Ideal) (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)))
      (val_main_v30 (F := Ideal) (m ((c.tc : Thread nD τ).loc main_arg0)) (m ((c.tc : Thread nD τ).loc main_arg1)) (m ((c.tc : Thread nD τ).loc main_arg2))
        (m ((c.tc : Thread nD τ).loc main_arg4))) = _
  rw [hpos, hneg]

end ReferenceSide

/-! ## The claims -/

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

/-- The two round trips through the narrower format that the idealization removed are the identity over the extended
    reals. -/
theorem preserves : Cert.preserves_Kernel_KernelIdeal :=
  ⟨IdealRules.truncf_extf.statement _ _ _, IdealRules.truncf_extf.statement _ _ _⟩

/-- From memories that agree on the arguments both programs end at the loss of the arguments. -/
theorem algebraic : Cert.algebraic_KernelIdeal_ReferenceIdeal := by
  intro m ρ m' ρ' hpre hagree
  refine ⟨fun c => lossOfArgs (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), kernel_run m ρ hpre, ?_⟩
  have hown : ∀ (c : Dev Cert.ReferenceIdeal.nD) n,
      0 ≤ ((m' ((c.tc : Thread Cert.ReferenceIdeal.nD Cert.ReferenceIdeal.τ).loc Cert.ReferenceIdeal.main_arg3) : Cert.ReferenceIdeal.S1024.Idx → BitVec 32) n).toInt := fun c n => by
    rw [(hagree c).2.2.2.1]
    exact (facts_of_pre _ _ _ _ _ (hpre c)).2.2 n
  refine (θ_run Cert.ReferenceIdeal.defs _ _).mono (fun r h c => ⟨(h c).1.trans ?_, (h c).2⟩) (reference_run m' ρ' hown)
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
